-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_divisor" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S1600000x16 : Shape := ⟨2, ![1600000, 16]⟩
abbrev S50000x128 : Shape := ⟨2, ![50000, 128]⟩
abbrev S1600000x128 : Shape := ⟨2, ![1600000, 128]⟩
abbrev S2x1600000 : Shape := ⟨2, ![2, 1600000]⟩
abbrev S1600000x1 : Shape := ⟨2, ![1600000, 1]⟩
abbrev S128x128 : Shape := ⟨2, ![128, 128]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S50000x128 : S_.BroadcastsInDim S50000x128 (![] : Fin 0 → Fin S50000x128.rank)
  reducesTo_S50000x128_S_d0_1 : S50000x128.ReducesTo [0, 1] S_
  bcast_S_S1600000x128 : S_.BroadcastsInDim S1600000x128 (![] : Fin 0 → Fin S1600000x128.rank)
  reducesTo_S1600000x128_S_d0_1 : S1600000x128.ReducesTo [0, 1] S_
  bcast_S_S1600000x1 : S_.BroadcastsInDim S1600000x1 (![] : Fin 0 → Fin S1600000x1.rank)
  reducesTo_S1600000x1_S_d0_1 : S1600000x1.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S1600000x1 .f32) (main_arg6 : FVec F S128x128 .f32) (main_arg7 : FVec F S128x128 .f32) (main_v13 : IVec S_ 1) (main_v16 : IVec S1600000x128 1) : IVec S_ 1 :=
  let main_c_5 : IVec S_ 1 := constantI S_ 1 1#1
  let main_v17 : IVec S_ 1 := (fun x v => Host.reduce IntOp.andi x v reducesTo_S1600000x128_S_d0_1 h_S_) main_v16 main_c_5
  let main_v18 : IVec S_ 1 := andi main_v13 main_v17
  let main_v19 : FVec F S1600000x1 .f32 := Host.absf main_arg5
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x16 .f32) (main_arg1 : FVec F S1600000x16 .f32) (main_arg2 : FVec F S50000x128 .f32) (main_arg3 : FVec F S1600000x128 .f32) (main_arg4 : IVec S2x1600000 32) (main_arg5 : FVec F S1600000x1 .f32) (main_arg6 : FVec F S128x128 .f32) (main_arg7 : FVec F S128x128 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S1600000x128 .f32 := Host.absf main_arg3
  let main_cst_4 : FVec F S_ .f32 := constant S_ .f32 0x7F800000#32
  let main_v15 : FVec F S1600000x128 .f32 := broadcastInDim S1600000x128 ![] bcast_S_S1600000x128 main_cst_4
  let main_v16 : IVec S1600000x128 1 := cmpf .olt main_v14 main_v15
  fn_part1 (F := F) main_arg5 main_arg6 main_arg7 main_v13 main_v16
-- ==== Kernel.lean ====
abbrev S50000x16 : Shape := ⟨2, ![50000, 16]⟩
abbrev S1600000x16 : Shape := ⟨2, ![1600000, 16]⟩
abbrev S50000x128 : Shape := ⟨2, ![50000, 128]⟩
abbrev S1600000x128 : Shape := ⟨2, ![1600000, 128]⟩
abbrev S2x1600000 : Shape := ⟨2, ![2, 1600000]⟩
abbrev S1600000x1 : Shape := ⟨2, ![1600000, 1]⟩
abbrev S128x128 : Shape := ⟨2, ![128, 128]⟩
abbrev S128x16 : Shape := ⟨2, ![128, 16]⟩
abbrev S256x128 : Shape := ⟨2, ![256, 128]⟩
abbrev S128x256 : Shape := ⟨2, ![128, 256]⟩
abbrev S50000x256 : Shape := ⟨2, ![50000, 256]⟩
abbrev S1000x128 : Shape := ⟨2, ![1000, 128]⟩
abbrev S1000x256 : Shape := ⟨2, ![1000, 256]⟩
abbrev S1x1600000 : Shape := ⟨2, ![1, 1600000]⟩
abbrev S1600000 : Shape := ⟨1, ![1600000]⟩
abbrev S_ : Shape := ⟨0, ![]⟩
abbrev S4000x128 : Shape := ⟨2, ![4000, 128]⟩
abbrev S4000x1 : Shape := ⟨2, ![4000, 1]⟩
abbrev S4000x16 : Shape := ⟨2, ![4000, 16]⟩

abbrev nBuf : Space → Nat
  | .hbm => 41
  | .vmem => 18
  | .smem => 0
  | _ => 0

abbrev bufTy : (tb : Table) → Fin (tcTables nBuf tb) → BufTy
  | .hbm, ⟨0, _⟩ => ⟨S50000x16, .f32⟩
  | .hbm, ⟨1, _⟩ => ⟨S1600000x16, .f32⟩
  | .hbm, ⟨2, _⟩ => ⟨S50000x128, .f32⟩
  | .hbm, ⟨3, _⟩ => ⟨S1600000x128, .f32⟩
  | .hbm, ⟨4, _⟩ => ⟨S2x1600000, .i32⟩
  | .hbm, ⟨5, _⟩ => ⟨S1600000x1, .f32⟩
  | .hbm, ⟨6, _⟩ => ⟨S128x128, .f32⟩
  | .hbm, ⟨7, _⟩ => ⟨S128x128, .f32⟩
  | .hbm, ⟨8, _⟩ => ⟨S128x16, .f32⟩
  | .hbm, ⟨9, _⟩ => ⟨S256x128, .f32⟩
  | .hbm, ⟨10, _⟩ => ⟨S128x256, .f32⟩
  | .hbm, ⟨11, _⟩ => ⟨S50000x256, .f32⟩
  | .hbm, ⟨12, _⟩ => ⟨S50000x128, .f32⟩
  | .hbm, ⟨13, _⟩ => ⟨S50000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x16, .f32⟩
  | .hbm, ⟨37, _⟩ => ⟨S_, .f32⟩
  | .hbm, ⟨38, _⟩ => ⟨S50000x16, .f32⟩
  | .hbm, ⟨39, _⟩ => ⟨S1600000x1, .i32⟩
  | .hbm, ⟨40, _⟩ => ⟨S50000x16, .f32⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1000x256, .f32⟩
  | .local _ .vmem, ⟨4, _⟩ => ⟨S1000x256, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S4000x16, .f32⟩
  | .local _ .vmem, ⟨14, _⟩ => ⟨S4000x16, .f32⟩
  | .local _ .vmem, ⟨15, _⟩ => ⟨S128x16, .f32⟩
  | .local _ .vmem, ⟨16, _⟩ => ⟨S4000x16, .f32⟩
  | .local _ .vmem, ⟨17, _⟩ => ⟨S4000x16, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S128x128_S128x128_S256x128_d0 : Shape.Concatenates [S128x128, S128x128] S256x128 0
  transposes_S256x128_S128x256_1_0 : S256x128.Transposes [1, 0] S128x256
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1000x256_S1000x256_0_0 : ∀ a, (![0, 0] : Fin 2 → Nat) a + S1000x256.size a ≤ S1000x256.size a
  h_S1000x256 : 0 < S1000x256.numel
  slices_S50000x256_S50000x128_0_0 : S50000x256.Slices ![0, 0] S50000x128
  slices_S50000x256_S50000x128_0_128 : S50000x256.Slices ![0, 128] S50000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x16_S128x16_0_0 : ∀ a, (![0, 0] : Fin 2 → Nat) a + S128x16.size a ≤ S128x16.size a
  h_S128x16 : 0 < S128x16.numel
  inb_S4000x1_S4000x1_0_0 : ∀ a, (![0, 0] : Fin 2 → Nat) a + S4000x1.size a ≤ S4000x1.size a
  h_S4000x1 : 0 < S4000x1.numel
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S50000x16 : S_.BroadcastsInDim S50000x16 (![] : Fin 0 → Fin S50000x16.rank)
  dot_S1000x128_S128x256_S1000x256_1_0_0_1_n_n_wf : DotDims.WF S1000x128 S128x256 S1000x256 [1] [0] [0] [1] [] []
  gather_S50000x128_S1600000x1_S1600000x128_1_0_n_n_0_1_1128_wf : GatherDims.WF S50000x128 S1600000x1 S1600000x128 [1] [0] [] [0] [] 1 ![1, 128]
  dot_S4000x128_S128x16_S4000x16_1_0_0_1_n_n_wf : DotDims.WF S4000x128 S128x16 S4000x16 [1] [0] [0] [1] [] []
  scatter_S50000x16_S1600000x1_S1600000x16_1_0_0_1_wf : ScatterDims.WF S50000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1600000x128.size a
  hwx1_0 : ∀ i : grid1.Coords, EltTy.bits .f32 = 32 ∨ (Rect.block (s := S1600000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S1600000x128.size a
  hwx1_1 : ∀ i : grid1.Coords, EltTy.bits .f32 = 32 ∨ (Rect.block (s := S1600000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S1600000x128.size a
  hwx1_2 : ∀ i : grid1.Coords, EltTy.bits .f32 = 32 ∨ (Rect.block (s := S1600000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S1600000x1.size a
  hwx1_3 : ∀ i : grid1.Coords, EltTy.bits .f32 = 32 ∨ (Rect.block (s := S1600000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x16.size a ≤ S1600000x16.size a
  hwx1_4 : ∀ i : grid1.Coords, EltTy.bits .f32 = 32 ∨ (Rect.block (s := S1600000x16) S4000x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x16.size a ≤ S128x16.size a
  hwx1_5 : ∀ i : grid1.Coords, EltTy.bits .f32 = 32 ∨ (Rect.block (s := S128x16) S128x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x16.size a ≤ S1600000x16.size a
  hwx1_6 : ∀ i : grid1.Coords, EltTy.bits .f32 = 32 ∨ (Rect.block (s := S1600000x16) S4000x16.size (cc1_transform_6 i) (hinb1_6 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf

abbrev win0_0 : Pipeline.Window sig grid0 :=
  Pipeline.Window.ofSpec (Memref.whole main_arg2) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S4000x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_cst) S128x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S4000x16.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x16 : Shape := ⟨2, ![50000, 16]⟩
abbrev S1600000x16 : Shape := ⟨2, ![1600000, 16]⟩
abbrev S50000x128 : Shape := ⟨2, ![50000, 128]⟩
abbrev S1600000x128 : Shape := ⟨2, ![1600000, 128]⟩
abbrev S2x1600000 : Shape := ⟨2, ![2, 1600000]⟩
abbrev S1600000x1 : Shape := ⟨2, ![1600000, 1]⟩
abbrev S128x128 : Shape := ⟨2, ![128, 128]⟩
abbrev S4 : Shape := ⟨1, ![4]⟩
abbrev S50000x4x32 : Shape := ⟨3, ![50000, 4, 32]⟩
abbrev S1x1600000 : Shape := ⟨2, ![1, 1600000]⟩
abbrev S1600000 : Shape := ⟨1, ![1600000]⟩
abbrev S_ : Shape := ⟨0, ![]⟩
abbrev S1600000x4x32 : Shape := ⟨3, ![1600000, 4, 32]⟩
abbrev S1600000x4 : Shape := ⟨2, ![1600000, 4]⟩
abbrev S1 : Shape := ⟨1, ![1]⟩
abbrev S3 : Shape := ⟨1, ![3]⟩
abbrev S16 : Shape := ⟨1, ![16]⟩
abbrev S4x1 : Shape := ⟨2, ![4, 1]⟩
abbrev S16x1 : Shape := ⟨2, ![16, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x16, .f32⟩
  | .hbm, ⟨1, _⟩ => ⟨S1600000x16, .f32⟩
  | .hbm, ⟨2, _⟩ => ⟨S50000x128, .f32⟩
  | .hbm, ⟨3, _⟩ => ⟨S1600000x128, .f32⟩
  | .hbm, ⟨4, _⟩ => ⟨S2x1600000, .i32⟩
  | .hbm, ⟨5, _⟩ => ⟨S1600000x1, .f32⟩
  | .hbm, ⟨6, _⟩ => ⟨S128x128, .f32⟩
  | .hbm, ⟨7, _⟩ => ⟨S128x128, .f32⟩
  | .hbm, ⟨8, _⟩ => ⟨S4, .i32⟩
  | .hbm, ⟨9, _⟩ => ⟨S128x128, .f32⟩
  | .hbm, ⟨10, _⟩ => ⟨S50000x128, .f32⟩
  | .hbm, ⟨11, _⟩ => ⟨S50000x4x32, .f32⟩
  | .hbm, ⟨12, _⟩ => ⟨S128x128, .f32⟩
  | .hbm, ⟨13, _⟩ => ⟨S50000x128, .f32⟩
  | .hbm, ⟨14, _⟩ => ⟨S50000x4x32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x4x32, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x4x32, .f32⟩
  | .hbm, ⟨37, _⟩ => ⟨S1600000x4x32, .f32⟩
  | .hbm, ⟨38, _⟩ => ⟨S1600000x4x32, .f32⟩
  | .hbm, ⟨39, _⟩ => ⟨S1600000x4x32, .f32⟩
  | .hbm, ⟨40, _⟩ => ⟨S_, .f32⟩
  | .hbm, ⟨41, _⟩ => ⟨S1600000x4, .f32⟩
  | .hbm, ⟨42, _⟩ => ⟨S_, .f32⟩
  | .hbm, ⟨43, _⟩ => ⟨S1600000x4, .f32⟩
  | .hbm, ⟨44, _⟩ => ⟨S1600000x4, .f32⟩
  | .hbm, ⟨45, _⟩ => ⟨S1600000x4, .f32⟩
  | .hbm, ⟨46, _⟩ => ⟨S1600000x4, .f32⟩
  | .hbm, ⟨47, _⟩ => ⟨S1, .i32⟩
  | .hbm, ⟨48, _⟩ => ⟨S3, .i32⟩
  | .hbm, ⟨49, _⟩ => ⟨S4, .i32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S4, .i32⟩
  | .hbm, ⟨54, _⟩ => ⟨S_, .i32⟩
  | .hbm, ⟨55, _⟩ => ⟨S_, .i32⟩
  | .hbm, ⟨56, _⟩ => ⟨S4, .i32⟩
  | .hbm, ⟨57, _⟩ => ⟨S_, .i32⟩
  | .hbm, ⟨58, _⟩ => ⟨S16, .i32⟩
  | .hbm, ⟨59, _⟩ => ⟨S_, .i32⟩
  | .hbm, ⟨60, _⟩ => ⟨S4, .i32⟩
  | .hbm, ⟨61, _⟩ => ⟨S4, .i1⟩
  | .hbm, ⟨62, _⟩ => ⟨S_, .i32⟩
  | .hbm, ⟨63, _⟩ => ⟨S4, .i32⟩
  | .hbm, ⟨64, _⟩ => ⟨S4, .i32⟩
  | .hbm, ⟨65, _⟩ => ⟨S4, .i32⟩
  | .hbm, ⟨66, _⟩ => ⟨S4x1, .i32⟩
  | .hbm, ⟨67, _⟩ => ⟨S_, .i32⟩
  | .hbm, ⟨68, _⟩ => ⟨S4, .i32⟩
  | .hbm, ⟨69, _⟩ => ⟨S16, .i32⟩
  | .hbm, ⟨70, _⟩ => ⟨S_, .i32⟩
  | .hbm, ⟨71, _⟩ => ⟨S_, .i32⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S_, .i32⟩
  | .hbm, ⟨77, _⟩ => ⟨S16, .i32⟩
  | .hbm, ⟨78, _⟩ => ⟨S16, .i1⟩
  | .hbm, ⟨79, _⟩ => ⟨S_, .i32⟩
  | .hbm, ⟨80, _⟩ => ⟨S16, .i32⟩
  | .hbm, ⟨81, _⟩ => ⟨S16, .i32⟩
  | .hbm, ⟨82, _⟩ => ⟨S16, .i32⟩
  | .hbm, ⟨83, _⟩ => ⟨S16x1, .i32⟩
  | .hbm, ⟨84, _⟩ => ⟨S1, .i32⟩
  | .hbm, ⟨85, _⟩ => ⟨S_, .i32⟩
  | .hbm, ⟨86, _⟩ => ⟨S16x1, .i32⟩
  | .hbm, ⟨87, _⟩ => ⟨S16x1, .i1⟩
  | .hbm, ⟨88, _⟩ => ⟨S1x1, .i32⟩
  | .hbm, ⟨89, _⟩ => ⟨S16x1, .i32⟩
  | .hbm, ⟨90, _⟩ => ⟨S16x1, .i1⟩
  | .hbm, ⟨91, _⟩ => ⟨S16x1, .i1⟩
  | .hbm, ⟨92, _⟩ => ⟨S_, .i1⟩
  | .hbm, ⟨93, _⟩ => ⟨S16, .i1⟩
  | .hbm, ⟨94, _⟩ => ⟨S1600000x16, .f32⟩
  | .hbm, ⟨95, _⟩ => ⟨S1600000x16, .i1⟩
  | .hbm, ⟨96, _⟩ => ⟨S_, .f32⟩
  | .hbm, ⟨97, _⟩ => ⟨S1600000x16, .f32⟩
  | .hbm, ⟨98, _⟩ => ⟨S1600000x16, .f32⟩
  | .hbm, ⟨99, _⟩ => ⟨S1600000x16, .f32⟩
  | .hbm, ⟨100, _⟩ => ⟨S_, .f32⟩
  | .hbm, ⟨101, _⟩ => ⟨S50000x16, .f32⟩
  | .hbm, ⟨102, _⟩ => ⟨S1600000x1, .i32⟩
  | .hbm, ⟨103, _⟩ => ⟨S50000x16, .f32⟩
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_call1_call0_c : Ref sig .tc := ⟨.hbm, 54, rfl⟩
abbrev main_call1_call0_v0 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_call2_call0_c : Ref sig .tc := ⟨.hbm, 70, rfl⟩
abbrev main_call2_call0_v0 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v48 : Ref sig .tc := ⟨.hbm, 98, rfl⟩
abbrev main_v49 : Ref sig .tc := ⟨.hbm, 99, rfl⟩
abbrev main_cst_12 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩

abbrev nD : Nat := 1
abbrev τ : Topo := Topo.v7x

variable {F : FTy → Type} [FloatOps F]

class Facts₀ : Prop where
  transposes_S128x128_S128x128_1_0 : S128x128.Transposes [1, 0] S128x128
  shapeCasts_S50000x128_S50000x4x32 : S50000x128.ShapeCasts S50000x4x32
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x128_S1600000x4x32 : S1600000x128.ShapeCasts S1600000x4x32
  reducesTo_S1600000x4x32_S1600000x4_d2 : S1600000x4x32.ReducesTo [2] S1600000x4
  h_S_ : 0 < S_.numel
  bcast_S_S1600000x4 : S_.BroadcastsInDim S1600000x4 (![] : Fin 0 → Fin S1600000x4.rank)
  bcast_S1600000x1_S1600000x4_0_1 : S1600000x1.BroadcastsInDim S1600000x4 (![0, 1] : Fin 2 → Fin S1600000x4.rank)
  slices_S4_S1_3 : S4.Slices ![3] S1
  slices_S4_S3_0 : S4.Slices ![0] S3
  concatenates_S1_S3_S4_d0 : Shape.Concatenates [S1, S3] S4 0
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  bcast_S_S16 : S_.BroadcastsInDim S16 (![] : Fin 0 → Fin S16.rank)
  bcast_S_S4 : S_.BroadcastsInDim S4 (![] : Fin 0 → Fin S4.rank)
  bcast_S4_S4x1_0 : S4.BroadcastsInDim S4x1 (![0] : Fin 1 → Fin S4x1.rank)
  reduceWindows_S16_S16_w16s1p15_0 : S16.ReduceWindows (![16] : Fin 1 → Nat) ![1] ![15] ![0] S16
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  bcast_S16_S1600000x16_1 : S16.BroadcastsInDim S1600000x16 (![1] : Fin 1 → Fin S1600000x16.rank)
  bcast_S_S1600000x16 : S_.BroadcastsInDim S1600000x16 (![] : Fin 0 → Fin S1600000x16.rank)
  bcast_S_S50000x16 : S_.BroadcastsInDim S50000x16 (![] : Fin 0 → Fin S50000x16.rank)
  dot_S50000x128_S128x128_S50000x128_1_0_0_1_n_n_wf : DotDims.WF S50000x128 S128x128 S50000x128 [1] [0] [0] [1] [] []
  gather_S50000x4x32_S1600000x1_S1600000x4x32_12_0_n_n_0_1_1432_wf : GatherDims.WF S50000x4x32 S1600000x1 S1600000x4x32 [1, 2] [0] [] [0] [] 1 ![1, 4, 32]
  scatter_S4_S1_S__n_0_0_0_wf : ScatterDims.WF S4 S1 S_ [] [0] [0] 0
  scatter_S16_S4x1_S4_n_0_0_1_wf : ScatterDims.WF S16 S4x1 S4 [] [0] [0] 1
  gather_S1600000x4_S16x1_S1600000x16_0_1_n_n_1_1_16000001_wf : GatherDims.WF S1600000x4 S16x1 S1600000x16 [0] [1] [] [1] [] 1 ![1600000, 1]
  scatter_S50000x16_S1600000x1_S1600000x16_1_0_0_1_wf : ScatterDims.WF S50000x16 S1600000x1 S1600000x16 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x4x32_S1600000x1_S1600000x4x32_12_0_n_n_0_1_1432 : GatherDims S50000x4x32 S1600000x1 S1600000x4x32 where
  offsetDims := [1, 2]
  collapsedSliceDims := [0]
  operandBatchingDims := []
  startIndicesBatchingDims := []
  startIndexMap := [0]
  indexVectorDim := 1
  sliceSizes := ![1, 4, 32]
  wf := gather_S50000x4x32_S1600000x1_S1600000x4x32_12_0_n_n_0_1_1432_wf
def scatter_S4_S1_S__n_0_0_0 : ScatterDims S4 S1 S_ where
  updateWindowDims := []
  insertedWindowDims := [0]
  scatterDimsToOperandDims := [0]
  indexVectorDim := 0
  wf := scatter_S4_S1_S__n_0_0_0_wf
def scatter_S16_S4x1_S4_n_0_0_1 : ScatterDims S16 S4x1 S4 where
  updateWindowDims := []
  insertedWindowDims := [0]
  scatterDimsToOperandDims := [0]
  indexVectorDim := 1
  wf := scatter_S16_S4x1_S4_n_0_0_1_wf
def gather_S1600000x4_S16x1_S1600000x16_0_1_n_n_1_1_16000001 : GatherDims S1600000x4 S16x1 S1600000x16 where
  offsetDims := [0]
  collapsedSliceDims := [1]
  operandBatchingDims := []
  startIndicesBatchingDims := []
  startIndexMap := [1]
  indexVectorDim := 1
  sliceSizes := ![1600000, 1]
  wf := gather_S1600000x4_S16x1_S1600000x16_0_1_n_n_1_1_16000001_wf
def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf

class Facts : Prop extends Facts₀ where

variable [Facts]
-- ==== Proof.HeadScore.lean ====
/-
  The specification. Per edge e (destination node i, source node j) and per output column c, whose head is h(c) (the
  sixteen columns are 1 + 3 + 5 + 7 copies of the four heads):

    contrib[e, c] = (Σ_{d < 32} q[i, 32 h(c) + d] · w[e, 32 h(c) + d] · k[j, 32 h(c) + d]) · (1 / D) · cutoff[e] · sph[e, c],

  with q = x · Wqᵀ and k = x · Wkᵀ the node projections and D the divisor the reference carries. Everything is an extended
  real; the sums are finite sums of the commutative monoid of extended reals, so no finiteness is used anywhere.
  Also here: the two shapes in which the kernel's regions leave their results (a plain matrix product, and the per-edge
  score through a 0/1 grouping matrix), as functions of whole arrays, index by index.
-/
import Idealize.ShloMosaic.PureOps.Ideal
import Idealize.ShloMosaic.Lib.ValueIdx

noncomputable section

open Idealize.ShloMosaic Idealize.ShloMosaic.ValueIdx
open scoped BigOperators

namespace Cert.HeadScore

/-- The node a start index names: the word read as a signed integer and brought inside the 50000 nodes. -/
def nodeOf (idx : IVec ⟨2, ![1600000, 1]⟩ 32) (e : Fin 1600000) : Fin 50000 :=
  ⟨min (idx (ix2 e (0 : Fin 1))).toInt.toNat (50000 - 1), by omega⟩

/-- A node's projected feature: row n of x against row j of W. -/
def proj (x : FVec Ideal ⟨2, ![50000, 128]⟩ .f32) (W : FVec Ideal ⟨2, ![128, 128]⟩ .f32) (n : Fin 50000) (j : Fin 128) : EReal :=
  ∑ k : Fin 128, x (ix2 n k) * W (ix2 j k)

/-- Lane l of edge e's triple product q[dst] · w · k[src]. -/
def lane (x : FVec Ideal ⟨2, ![50000, 128]⟩ .f32) (Wq Wk : FVec Ideal ⟨2, ![128, 128]⟩ .f32)
    (w : FVec Ideal ⟨2, ![1600000, 128]⟩ .f32) (idxd idxs : IVec ⟨2, ![1600000, 1]⟩ 32) (e : Fin 1600000) (l : Fin 128) : EReal :=
  proj x Wq (nodeOf idxd e) l * w (ix2 e l) * proj x Wk (nodeOf idxs e) l

/-- The head an output column belongs to: heads 0, 1, 2, 3 own 1, 3, 5, 7 consecutive columns. -/
def headOf (c : Fin 16) : Fin 4 :=
  if c.val < 1 then 0 else if c.val < 4 then 1 else if c.val < 9 then 2 else 3

/-- Lane d of head h among the 128 lanes. -/
def laneOf (h : Fin 4) (d : Fin 32) : Fin 128 := ⟨32 * h.val + d.val, by omega⟩

/-- The reciprocal of the reference's divisor D = 11863283 / 2097152. -/
def invDiv : EReal := ((2097152 / 11863283 : ℝ) : EReal)

/-- The contribution of edge e to output column c. -/
def contribAt (x : FVec Ideal ⟨2, ![50000, 128]⟩ .f32) (Wq Wk : FVec Ideal ⟨2, ![128, 128]⟩ .f32)
    (w : FVec Ideal ⟨2, ![1600000, 128]⟩ .f32) (cut : FVec Ideal ⟨2, ![1600000, 1]⟩ .f32)
    (sph : FVec Ideal ⟨2, ![1600000, 16]⟩ .f32) (idxd idxs : IVec ⟨2, ![1600000, 1]⟩ 32)
    (e : Fin 1600000) (c : Fin 16) : EReal :=
  (∑ d : Fin 32, lane x Wq Wk w idxd idxs e (laneOf (headOf c) d)) * invDiv * cut (ix2 e (0 : Fin 1)) * sph (ix2 e c)

/-- The edge contributions as one array. -/
def contrib (x : FVec Ideal ⟨2, ![50000, 128]⟩ .f32) (Wq Wk : FVec Ideal ⟨2, ![128, 128]⟩ .f32)
    (w : FVec Ideal ⟨2, ![1600000, 128]⟩ .f32) (cut : FVec Ideal ⟨2, ![1600000, 1]⟩ .f32)
    (sph : FVec Ideal ⟨2, ![1600000, 16]⟩ .f32) (idxd idxs : IVec ⟨2, ![1600000, 1]⟩ 32) :
    FVec Ideal ⟨2, ![1600000, 16]⟩ .f32 :=
  fun i => contribAt x Wq Wk w cut sph idxd idxs (i 0) (i 1)

/-- A 50000 × 128 matrix times a 128 × 256 matrix, entry by entry. -/
def projOut (x : FVec Ideal ⟨2, ![50000, 128]⟩ .f32) (wt : FVec Ideal ⟨2, ![128, 256]⟩ .f32) :
    FVec Ideal ⟨2, ![50000, 256]⟩ .f32 :=
  fun i => ∑ k : Fin 128, x (ix2 (i 0) k) * wt (ix2 k (i 1))

/-- The per-edge score through a grouping matrix M: the lanes' triple products summed against column c of M, then the
    scale, the cutoff of the edge and the edge's spherical component. -/
def edgeOut (qi kj w : FVec Ideal ⟨2, ![1600000, 128]⟩ .f32) (cut : FVec Ideal ⟨2, ![1600000, 1]⟩ .f32)
    (sph : FVec Ideal ⟨2, ![1600000, 16]⟩ .f32) (M : FVec Ideal ⟨2, ![128, 16]⟩ .f32) :
    FVec Ideal ⟨2, ![1600000, 16]⟩ .f32 :=
  fun i => (∑ l : Fin 128, (qi (ix2 (i 0) l) * w (ix2 (i 0) l) * kj (ix2 (i 0) l)) * M (ix2 l (i 1)))
    * invDiv * cut (ix2 (i 0) (0 : Fin 1)) * sph (ix2 (i 0) (i 1))

end Cert.HeadScore

end
-- ==== Proof.KernelTerm.lean ====
/-
  The kernel program's result as one term of its eight argument arrays: the two weight matrices stacked and transposed,
  the node projection (region 0), its two column halves gathered at the destination and source nodes, the per-edge score
  through the 0/1 grouping matrix (region 1), and the sum of the contributions over each destination node.
-/
import proofs.«423898_j89910845374840_1_alg».proof.Proof.Gen.KernelIdeal
import proofs.«423898_j89910845374840_1_alg».proof.Proof.HeadScore

noncomputable section

open Idealize.ShloMosaic Idealize.ShloMosaic.ValueIdx

namespace Cert.KernelIdeal.Term

open Cert.KernelIdeal Cert.KernelIdeal.Facts₀

/-- The stacked weights [Wq; Wk], transposed: 128 × 256. -/
def wT (Wq Wk : FVec Ideal S128x128 .f32) : FVec Ideal S128x256 .f32 :=
  transpose S128x256 [1, 0] (concatenate S256x128 0 [⟨S128x128, Wq⟩, ⟨S128x128, Wk⟩] concatenates_S128x128_S128x128_S256x128_d0)
    transposes_S256x128_S128x256_1_0

/-- The 0/1 grouping matrix, as the program's literal table. -/
def groupM : FVec Ideal S128x16 .f32 := fun i => FloatOps.ofBits .f32 (lit0 (S128x16.rowMajor i))

/-- Row r of the edge index table as a vector of words. -/
def endpoint (ei : IVec S2x1600000 32) (off : Fin 2 → Nat) (h : S2x1600000.Slices off S1x1600000) : IVec S1600000 32 :=
  shapeCast S1600000 (extractStridedSlice S1x1600000 off ei h) shapeCasts_S1x1600000_S1600000

/-- The sources: row 0. -/
def srcRaw (ei : IVec S2x1600000 32) : IVec S1600000 32 := endpoint ei ![0, 0] slices_S2x1600000_S1x1600000_0_0
/-- The destinations: row 1. -/
def dstRaw (ei : IVec S2x1600000 32) : IVec S1600000 32 := endpoint ei ![1, 0] slices_S2x1600000_S1x1600000_1_0

/-- The start indices a row gather takes: a negative word has 50000 added, then the vector is a column. -/
def startIdx (d : IVec S1600000 32) : IVec S1600000x1 32 :=
  broadcastInDim S1600000x1 ![0] bcast_S1600000_S1600000x1_0
    (select (cmpi .slt d (broadcastInDim S1600000 ![] bcast_S_S1600000 (constantI S_ 32 0#32)))
      (addi d (broadcastInDim S1600000 ![] bcast_S_S1600000 (constantI S_ 32 50000#32))) d)

/-- The rows of a 50000 × 128 table at the start indices. -/
def rowsAt (t : FVec Ideal S50000x128 .f32) (i : IVec S1600000x1 32) : FVec Ideal S1600000x128 .f32 :=
  Host.gather gather_S50000x128_S1600000x1_S1600000x128_1_0_n_n_0_1_1128 t i

/-- The first 128 columns of the projection: q. -/
def qCols (qk : FVec Ideal S50000x256 .f32) : FVec Ideal S50000x128 .f32 :=
  extractStridedSlice S50000x128 ![0, 0] qk slices_S50000x256_S50000x128_0_0
/-- The last 128 columns of the projection: k. -/
def kCols (qk : FVec Ideal S50000x256 .f32) : FVec Ideal S50000x128 .f32 :=
  extractStridedSlice S50000x128 ![0, 128] qk slices_S50000x256_S50000x128_0_128

/-- The contributions summed over each destination node, from a zero array. -/
def scatterTail (d : IVec S1600000 32) (u : FVec Ideal S1600000x16 .f32) : FVec Ideal S50000x16 .f32 :=
  Host.scatterAdd scatter_S50000x16_S1600000x1_S1600000x16_1_0_0_1
    (broadcastInDim S50000x16 ![] bcast_S_S50000x16 (constant S_ .f32 0x00000000#32))
    (broadcastInDim S1600000x1 ![0] bcast_S1600000_S1600000x1_0 d) u

/-- The edge contributions as the kernel computes them. -/
def edges (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    FVec Ideal S1600000x16 .f32 :=
  Cert.HeadScore.edgeOut (rowsAt (qCols (Cert.HeadScore.projOut x (wT Wq Wk))) (startIdx (dstRaw ei)))
    (rowsAt (kCols (Cert.HeadScore.projOut x (wT Wq Wk))) (startIdx (srcRaw ei))) w cut sph groupM

/-- The kernel program's result. -/
def result (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    FVec Ideal S50000x16 .f32 :=
  scatterTail (dstRaw ei) (edges x Wq Wk w ei cut sph)

end Cert.KernelIdeal.Term

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.ProjectionBlocks.lean ====
/-
  Region 0 (the node projection): the output array after the fifty grid points is the matrix product of the region's
  two input arrays, entry by entry. Point t writes rows 1000 t … 1000 t + 999, all 256 columns.
-/
import proofs.«423898_j89910845374840_1_alg».proof.Proof.Gen.KernelIdeal.Frame
import proofs.«423898_j89910845374840_1_alg».proof.Proof.HeadScore
import proofs.«423898_j89910845374840_1_alg».proof.Proof.LibPlainMatmul
import Idealize.ShloMosaic.Lib.Pipeline.Value

set_option maxRecDepth 16384

noncomputable section

open Idealize.ShloMosaic Idealize.ShloMosaic.ValueIdx
open scoped BigOperators

namespace Cert.KernelIdeal.ProjectionBlocks

open Cert.KernelIdeal Cert.KernelIdeal.Gen Idealize.ShloMosaic.TcCoe Idealize.SL.Sem
open Idealize.ShloMosaic.Pipeline (Dat Cfg Window)

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The product's dimension record is the plain one: rows by columns, contracted over the shared axis. -/
theorem dims_eq : dot_S1000x128_S128x256_S1000x256_1_0_0_1_n_n = DotDims.plain 1000 128 256 := rfl

/-- The body's payload at row p, column q: the sum over k of the left block at (p, k) times the right block at (k, q).
    Narrowing the float format is the identity on ideal values, and so is a shape cast to the same shape. -/
theorem pay_apply (x0 : Vec Ideal S1000x128 .f32) (x1 : Vec Ideal S128x256 .f32) (p : Fin 1000) (q : Fin 256) :
    k0_pay1 (F := Ideal) x0 x1 (ix2 p q) = ∑ k : Fin 128, x0 (ix2 p k) * x1 (ix2 k q) := by
  unfold k0_pay1
  rw [dims_eq]
  rw [Cert.LibPlainMatmul.matmul_plain_apply]
  simp only [truncf_apply, shapeCast_self]

/-- The block indices over the fifty grid points: the row windows (0 and 2) sit at block (t, 0), the weight window at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point t, entry (p, k), is the feature array at row 1000 t + p, column k. -/
theorem x_block_apply (c : Dev nD) (t : Fin cfg0.N) (p : Fin 1000) (k : Fin 128) (i : S50000x128.Idx)
    (h0 : (i 0).val = 1000 * t.val + p.val) (h1 : (i 1).val = k.val) :
    (iblk0 V c 0 t : Vec Ideal S1000x128 .f32) (ix2 p k) = (V c main_arg2 : S50000x128.Idx → Elt Ideal .f32) i := by
  obtain ⟨e0, e1, -⟩ := idx_facts t
  unfold iblk0
  rw [View.read_apply]
  show V c main_arg2 _ = V c main_arg2 _
  congr 1
  funext a
  apply Fin.ext
  match a with
  | ⟨0, _⟩ => show win0_0.index t (0 : Fin 2) * 1000 + 1 * p.val = (i 0).val; rw [e0, h0]; omega
  | ⟨1, _⟩ => show win0_0.index t (1 : Fin 2) * 128 + 1 * k.val = (i 1).val; rw [e1, h1]; omega

/-- The weight block at any point is the whole weight array. -/
theorem w_block_apply (c : Dev nD) (t : Fin cfg0.N) (k : Fin 128) (q : Fin 256) (i : S128x256.Idx)
    (h0 : (i 0).val = k.val) (h1 : (i 1).val = q.val) :
    (iblk0 V c 1 t : Vec Ideal S128x256 .f32) (ix2 k q) = (V c main_v1 : S128x256.Idx → Elt Ideal .f32) i := by
  obtain ⟨-, -, e2, e3, -⟩ := idx_facts t
  unfold iblk0
  rw [View.read_apply]
  show V c main_v1 _ = V c main_v1 _
  congr 1
  funext a
  apply Fin.ext
  match a with
  | ⟨0, _⟩ => show win0_1.index t (0 : Fin 2) * 128 + 1 * k.val = (i 0).val; rw [e2, h0]; omega
  | ⟨1, _⟩ => show win0_1.index t (1 : Fin 2) * 256 + 1 * q.val = (i 1).val; rw [e3, h1]; omega

set_option maxHeartbeats 400000 in
/-- What point t writes back is block t of the matrix product of the two arrays. -/
theorem flushed_eq (c : Dev nD) (t : Fin cfg0.N) :
    (dat0 (F := Ideal) V c).flushed 2 t = ((cfg0.win 2).blk t).view.read (Elt Ideal) (Cert.HeadScore.projOut (V c main_arg2) (V c main_v1)) := by
  show (cfg0.win 2).cut (grid0.coords t) ((dat0 V c).after 2 t) = _
  rw [after0_2]
  unfold out0_2
  rw [View.canon_unit_zero hz]
  simp only [View.ld_unit_zero (S := S1000x128) hz, View.ld_unit_zero (S := S128x256) hz]
  funext j
  obtain ⟨p, q, rfl⟩ : ∃ (p : Fin 1000) (q : Fin 256), j = ix2 p q := ⟨j 0, j 1, eq_ix2 j⟩
  show k0_pay1 (F := Ideal) (iblk0 V c 0 t) (iblk0 V c 1 t) (ix2 p q)
    = Cert.HeadScore.projOut (V c main_arg2) (V c main_v1) (((cfg0.win 2).blk t).view.emb (ix2 p q))
  rw [pay_apply]
  unfold Cert.HeadScore.projOut
  refine Finset.sum_congr rfl fun k _ => ?_
  obtain ⟨-, -, -, -, e4, e5⟩ := idx_facts t
  refine congrArg₂ (· * ·) ?_ ?_
  · refine x_block_apply V c t p k _ ?_ rfl
    show win0_2.index t (0 : Fin 2) * 1000 + 1 * p.val = 1000 * t.val + p.val
    rw [e4]; omega
  · refine w_block_apply V c t k q _ rfl ?_
    show win0_2.index t (1 : Fin 2) * 256 + 1 * q.val = q.val
    rw [e5]; omega

/-- An index of the output array is in point t's block iff each coordinate is in the block's range on its axis. -/
theorem mem_blk (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v2).slice (win0_2.rect t)).set ↔ _
  rw [View.set_slice_whole, Rect.mem_set_unit]
  exact Iff.rfl

set_option maxHeartbeats 400000 in
/-- Every index of the output array is in some point's block: row r is covered by point r / 1000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 50 := by decide
  have ht : (i 0).val / 1000 < cfg0.N := by rw [hN]; omega
  obtain ⟨-, -, -, -, e4, e5⟩ := idx_facts ⟨(i 0).val / 1000, ht⟩
  refine ⟨⟨(i 0).val / 1000, ht⟩, flush0_2 _, ?_⟩
  rw [mem_blk]
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, ht⟩ (1 : Fin 2) * 256 ≤ (i 1).val ∧ (i 1).val < win0_2.index ⟨(i 0).val / 1000, ht⟩ (1 : Fin 2) * 256 + 256
    rw [e5]; omega

/-- The projection's array after the region: the product of the node features with the transposed stacked weights. -/
theorem array_eq (c : Dev nD) :
    (dat0 (F := Ideal) V c).arrAt 2 cfg0.N = Cert.HeadScore.projOut (V c main_arg2) (V c main_v1) :=
  (dat0 (F := Ideal) V c).arrAt_eq_of_cover 2 _ (fun t _ => flushed_eq V c t) cover

end Cert.KernelIdeal.ProjectionBlocks

end
-- ==== Proof.EdgeBlocks.lean ====
/-
  Region 1 (the edge scores): the output array after the four hundred grid points is the per-edge score of the
  region's six input arrays, entry by entry. Point t writes rows 4000 t … 4000 t + 3999, all 16 columns.
-/
import proofs.«423898_j89910845374840_1_alg».proof.Proof.Gen.KernelIdeal.Frame
import proofs.«423898_j89910845374840_1_alg».proof.Proof.HeadScore
import proofs.«423898_j89910845374840_1_alg».proof.Proof.LibPlainMatmul
import Idealize.ShloMosaic.Lib.Pipeline.Value

set_option maxRecDepth 16384

noncomputable section

open Idealize.ShloMosaic Idealize.ShloMosaic.ValueIdx
open scoped BigOperators

namespace Cert.KernelIdeal.EdgeBlocks

open Cert.KernelIdeal Cert.KernelIdeal.Gen Idealize.ShloMosaic.TcCoe Idealize.SL.Sem
open Idealize.ShloMosaic.Pipeline (Dat Cfg Window)

variable (V : (c : Dev nD) → (b : Ref sig .tc) → Buf (Elt Ideal) ((c : Thread nD τ).loc b))

/-- The named scale of the body is the reciprocal of the reference's divisor. -/
theorem inv_named : Named.named (F := Ideal) Cert.KernelIdeal.κ "inv_divisor" (φ := .f32) 0x3E3504F3#32 = Cert.HeadScore.invDiv :=
  IdealRules.named_const.ideal_named_scalar _ _ _ _ rfl

/-- The matrix unit's product into a zero accumulator, read at row p and column j. -/
theorem matmul_apply (l : FVec Ideal S4000x128 .bf16) (r : FVec Ideal S128x16 .bf16) (p : Fin 4000) (j : Fin 16) :
    matmul dot_S4000x128_S128x16_S4000x16_1_0_0_1_n_n none l r (constant S4000x16 .f32 0x00000000#32) (ix2 p j)
      = ∑ k : Fin 128, l (ix2 p k) * r (ix2 k j) :=
  Cert.LibPlainMatmul.matmul_plain_apply (M := 4000) (K := 128) (N := 16) none l r p j

/-- The cutoff column spread along the sixteen columns, read at row p and column j. -/
theorem cut_apply (cut : FVec Ideal S4000x1 .f32) (p : Fin 4000) (j : Fin 16) :
    broadcastTo S4000x16 cut broadcasts_S4000x1_S4000x16 (ix2 p j) = cut (ix2 p (0 : Fin 1)) := by
  refine broadcastTo_apply cut broadcasts_S4000x1_S4000x16 (ix2 p j) (ix2 p (0 : Fin 1)) ?_
  intro a
  match a with
  | ⟨0, _⟩ => rfl
  | ⟨1, _⟩ => rfl

set_option maxHeartbeats 400000 in
/-- The body's stored value at row p and column j of its block. -/
theorem payload_apply (q w k : FVec Ideal S4000x128 .f32) (M : FVec Ideal S128x16 .f32) (cut : FVec Ideal S4000x1 .f32)
    (sph : FVec Ideal S4000x16 .f32) (p : Fin 4000) (j : Fin 16) :
    k1_pay1 (F := Ideal) q w k M cut sph (ix2 p j)
      = (∑ l : Fin 128, (q (ix2 p l) * w (ix2 p l) * k (ix2 p l)) * M (ix2 l j)) * Cert.HeadScore.invDiv
          * cut (ix2 p (0 : Fin 1)) * sph (ix2 p j) := by
  unfold k1_pay1
  rw [mulf_apply, mulf_apply, mulf_apply, broadcast_apply, inv_named, matmul_apply, cut_apply]
  refine congrArg (fun s => s * Cert.HeadScore.invDiv * cut (ix2 p (0 : Fin 1)) * sph (ix2 p j)) ?_
  refine Finset.sum_congr rfl fun l _ => ?_
  rw [truncf_apply, truncf_apply, mulf_apply, mulf_apply, shapeCast_self, shapeCast_self]

/-- The zero offset of a whole-block load or store, as a constant function. -/
theorem hz : (![0, 0] : Fin 2 → Nat) = fun _ => 0 := funext fun a => by fin_cases a <;> rfl

/-- The printed index maps over the grid: the five row-blocked inputs and the output sit at block (t, 0), the grouping
    matrix at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block is row 4000 t + p of the array. -/
def row (t : Fin cfg1.N) (p : Fin 4000) : Fin 1600000 :=
  ⟨4000 * t.val + p.val, by have ht : t.val < 400 := t.isLt; have hp := p.isLt; omega⟩

set_option maxHeartbeats 400000 in
/-- The destination projections' block at point t, read at (p, l). -/
theorem blk0_apply (c : Dev nD) (t : Fin cfg1.N) (p : Fin 4000) (l : Fin 128) :
    iblk1 (F := Ideal) V c 0 t (ix2 p l) = V c main_v15 (ix2 (row t p) l) := by
  show V c main_v15 (((cfg1.win 0).blk t).view.emb (ix2 p l)) = V c main_v15 (ix2 (row t p) l)
  obtain ⟨e0, e1, -⟩ := idx_facts t
  refine congrArg (V c main_v15) (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 128 + 1 * l.val = l.val; rw [e1]; omega

set_option maxHeartbeats 400000 in
/-- The source projections' block at point t, read at (p, l). -/
theorem blk1_apply (c : Dev nD) (t : Fin cfg1.N) (p : Fin 4000) (l : Fin 128) :
    iblk1 (F := Ideal) V c 1 t (ix2 p l) = V c main_v22 (ix2 (row t p) l) := by
  show V c main_v22 (((cfg1.win 1).blk t).view.emb (ix2 p l)) = V c main_v22 (ix2 (row t p) l)
  obtain ⟨-, -, e0, e1, -⟩ := idx_facts t
  refine congrArg (V c main_v22) (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 128 + 1 * l.val = l.val; rw [e1]; omega

set_option maxHeartbeats 400000 in
/-- The edge weights' block at point t, read at (p, l). -/
theorem blk2_apply (c : Dev nD) (t : Fin cfg1.N) (p : Fin 4000) (l : Fin 128) :
    iblk1 (F := Ideal) V c 2 t (ix2 p l) = V c main_arg3 (ix2 (row t p) l) := by
  show V c main_arg3 (((cfg1.win 2).blk t).view.emb (ix2 p l)) = V c main_arg3 (ix2 (row t p) l)
  obtain ⟨-, -, -, -, e0, e1, -⟩ := idx_facts t
  refine congrArg (V c main_arg3) (funext fun a => Fin.ext ?_)
  match a with
  | ⟨0, _⟩ => show win1_2.index t (0 : Fin 2) * 4000 + 1 * p.val = 4000 * t.val + p.val; rw [e0]; omega
  | ⟨1, _⟩ => show win1_2.index t (1 : Fin 2) * 128 + 1 * l.val = l.val; rw [e1]; omega

set_option maxHeartbeats 400000 in
/-- The cutoff column's block at point t, read at row p. -/
theorem blk3_apply (c : Dev nD) (t : Fin cfg1.N) (p : Fin 4000) :
    iblk1 (F := Ideal) V c 3 t (ix2 p (0 : Fin 1)) = V c main_arg5 (ix2 (row t p) (0 : Fin 1)) := by
  show V c main_arg5 (((cfg1.win 3).blk t).view.emb (ix2 p (0 : Fin 1))) = V c main_arg5 (ix2 (row t p) (0 : Fin 1))
  obtain ⟨-, -, -, -, -, -, e0, e1, -⟩ := idx_facts t
  refine congrArg (V c main_arg5) (funext fun a => Fin.ext ?_)
  match a with
  | ⟨0, _⟩ => show win1_3.index t (0 : Fin 2) * 4000 + 1 * p.val = 4000 * t.val + p.val; rw [e0]; omega
  | ⟨1, _⟩ => show win1_3.index t (1 : Fin 2) * 1 + 1 * 0 = 0; rw [e1]

set_option maxHeartbeats 400000 in
/-- The spherical components' block at point t, read at (p, j). -/
theorem blk4_apply (c : Dev nD) (t : Fin cfg1.N) (p : Fin 4000) (j : Fin 16) :
    iblk1 (F := Ideal) V c 4 t (ix2 p j) = V c main_arg1 (ix2 (row t p) j) := by
  show V c main_arg1 (((cfg1.win 4).blk t).view.emb (ix2 p j)) = V c main_arg1 (ix2 (row t p) j)
  obtain ⟨-, -, -, -, -, -, -, -, e0, e1, -⟩ := idx_facts t
  refine congrArg (V c main_arg1) (funext fun a => Fin.ext ?_)
  match a with
  | ⟨0, _⟩ => show win1_4.index t (0 : Fin 2) * 4000 + 1 * p.val = 4000 * t.val + p.val; rw [e0]; omega
  | ⟨1, _⟩ => show win1_4.index t (1 : Fin 2) * 16 + 1 * j.val = j.val; rw [e1]; omega

set_option maxHeartbeats 400000 in
/-- The grouping matrix's block is the whole matrix at every point. -/
theorem blk5_apply (c : Dev nD) (t : Fin cfg1.N) (l : Fin 128) (j : Fin 16) :
    iblk1 (F := Ideal) V c 5 t (ix2 l j) = V c main_cst (ix2 l j) := by
  show V c main_cst (((cfg1.win 5).blk t).view.emb (ix2 l j)) = V c main_cst (ix2 l j)
  obtain ⟨-, -, -, -, -, -, -, -, -, -, e0, e1, -⟩ := idx_facts t
  refine congrArg (V c main_cst) (funext fun a => Fin.ext ?_)
  match a with
  | ⟨0, _⟩ => show win1_5.index t (0 : Fin 2) * 128 + 1 * l.val = l.val; rw [e0]; omega
  | ⟨1, _⟩ => show win1_5.index t (1 : Fin 2) * 16 + 1 * j.val = j.val; rw [e1]; omega

set_option maxHeartbeats 400000 in
/-- The output's block at point t of a whole array, read at (p, j). -/
theorem out_read_apply (G : FVec Ideal S1600000x16 .f32) (t : Fin cfg1.N) (p : Fin 4000) (j : Fin 16) :
    ((cfg1.win 6).blk t).view.read (Elt Ideal) G (ix2 p j) = G (ix2 (row t p) j) := by
  show G (((cfg1.win 6).blk t).view.emb (ix2 p j)) = G (ix2 (row t p) j)
  obtain ⟨-, -, -, -, -, -, -, -, -, -, -, -, e0, e1⟩ := idx_facts t
  refine congrArg G (funext fun a => Fin.ext ?_)
  match a with
  | ⟨0, _⟩ => show win1_6.index t (0 : Fin 2) * 4000 + 1 * p.val = 4000 * t.val + p.val; rw [e0]; omega
  | ⟨1, _⟩ => show win1_6.index t (1 : Fin 2) * 16 + 1 * j.val = j.val; rw [e1]; omega

set_option maxHeartbeats 400000 in
/-- What point t writes back is block t of the per-edge score of the six arrays. -/
theorem flushed_eq (c : Dev nD) (t : Fin cfg1.N) :
    (dat1 (F := Ideal) V c).flushed 6 t = ((cfg1.win 6).blk t).view.read (Elt Ideal)
      (Cert.HeadScore.edgeOut (V c main_v15) (V c main_v22) (V c main_arg3) (V c main_arg5) (V c main_arg1) (V c main_cst)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x16) hz, View.ld_unit_zero (S := S4000x1) hz, View.ld_unit_zero (S := S4000x16) hz]
  funext j
  obtain ⟨p, q, rfl⟩ : ∃ (p : Fin 4000) (q : Fin 16), j = ix2 p q := ⟨j 0, j 1, eq_ix2 j⟩
  rw [out_read_apply]
  show k1_pay1 (iblk1 V c 0 t) (iblk1 V c 2 t) (iblk1 V c 1 t) (iblk1 V c 5 t) (iblk1 V c 3 t) (iblk1 V c 4 t) (ix2 p q) = _
  refine (payload_apply _ _ _ _ _ _ p q).trans ?_
  rw [blk3_apply, blk4_apply]
  unfold Cert.HeadScore.edgeOut
  refine congrArg (fun s => s * Cert.HeadScore.invDiv * V c main_arg5 (ix2 (row t p) (0 : Fin 1)) * V c main_arg1 (ix2 (row t p) q)) ?_
  refine Finset.sum_congr rfl fun l _ => ?_
  rw [blk0_apply, blk1_apply, blk2_apply, blk5_apply]

/-- An index of the output is in point t's block iff each coordinate is in the block's range on its axis. -/
theorem mem_blk (t : Fin cfg1.N) (i : S1600000x16.Idx) :
    i ∈ ((cfg1.win 6).blk t).view.set ↔ ∀ a : Fin 2, win1_6.index t a * S4000x16.size a ≤ (i a).val ∧ (i a).val < win1_6.index t a * S4000x16.size a + S4000x16.size a := by
  show i ∈ ((View.whole main_v23).slice (win1_6.rect t)).set ↔ _
  rw [View.set_slice_whole, Rect.mem_set_unit]
  exact Iff.rfl

set_option maxHeartbeats 400000 in
/-- Every index of the output is in some point's block: row r is in the block of point r / 4000. -/
theorem cover (i : S1600000x16.Idx) :
    ∃ t : Fin cfg1.N, (cfg1.win 6).flush t = true ∧ i ∈ ((cfg1.win 6).blk t).view.set := by
  have hi0 : (i 0).val < 1600000 := (i 0).isLt
  have hi1 : (i 1).val < 16 := (i 1).isLt
  obtain ⟨t, ht⟩ : ∃ t : Fin cfg1.N, t.val = (i 0).val / 4000 :=
    ⟨⟨(i 0).val / 4000, show (i 0).val / 4000 < 400 by omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 4000 ≤ (i 0).val ∧ (i 0).val < win1_6.index t (0 : Fin 2) * 4000 + 4000
    rw [e0, ht]; omega
  | ⟨1, _⟩ =>
    show win1_6.index t (1 : Fin 2) * 16 ≤ (i 1).val ∧ (i 1).val < win1_6.index t (1 : Fin 2) * 16 + 16
    rw [e1]; omega

/-- The score array after the region: the per-edge score of the gathered projections, the edge weights, the cutoff,
    the spherical components and the grouping matrix. -/
theorem array_eq (c : Dev nD) :
    (dat1 (F := Ideal) V c).arrAt 6 cfg1.N
      = Cert.HeadScore.edgeOut (V c main_v15) (V c main_v22) (V c main_arg3) (V c main_arg5) (V c main_arg1) (V c main_cst) :=
  (dat1 (F := Ideal) V c).arrAt_eq_of_cover 6 _ (fun t _ => flushed_eq V c t) cover

end Cert.KernelIdeal.EdgeBlocks

end
-- ==== Proof.KernelRead.lean ====
/-
  The result buffer's contents after the last host stretch, read back through the three host stretches and the two
  regions to the launch memory: the kernel program's result term of its argument arrays.
-/
import proofs.«423898_j89910845374840_1_alg».proof.Proof.Gen.KernelIdeal.Frame
import proofs.«423898_j89910845374840_1_alg».proof.Proof.KernelTerm
import proofs.«423898_j89910845374840_1_alg».proof.Proof.ProjectionBlocks
import proofs.«423898_j89910845374840_1_alg».proof.Proof.EdgeBlocks
import Idealize.ShloMosaic.Lib.StableHlo.Run

set_option maxRecDepth 16384

noncomputable section

open Idealize.ShloMosaic Idealize.ShloMosaic.ValueIdx
open scoped BigOperators

namespace Cert.KernelIdeal.Read

open Cert.KernelIdeal Cert.KernelIdeal.Gen Idealize.ShloMosaic.TcCoe Idealize.SL.Sem Idealize.ShloMosaic.StableHlo

variable (m : (ℓ : Loc nD τ sig) → Buf (Elt Ideal) ℓ) (ρ : Dev nD → PrngReg)

/-! ## The launch stretch: the grouping matrix, the stacked weights transposed, the arguments untouched -/

theorem W1_v1 (c : Dev nD) :
    W1 (F := Ideal) m ρ c (Proc.devRef .tc main_v1)
      = Term.wT (m ((c.tc : Thread nD τ).loc main_arg6)) (m ((c.tc : Thread nD τ).loc main_arg7)) := by
  show StableHlo.after hostOps0 (W0 m ρ c) (Proc.devRef .tc main_v1) = _
  after_results
  rfl

theorem W1_cst (c : Dev nD) :
    W1 (F := Ideal) m ρ c (Proc.devRef .tc main_cst) = Term.groupM := by
  show StableHlo.after hostOps0 (W0 m ρ c) (Proc.devRef .tc main_cst) = _
  after_results
  rfl

theorem W1_arg1 (c : Dev nD) :
    W1 (F := Ideal) m ρ c (Proc.devRef .tc main_arg1) = m ((c.tc : Thread nD τ).loc main_arg1) := by
  show StableHlo.after hostOps0 (W0 m ρ c) (Proc.devRef .tc main_arg1) = _
  after_results

theorem W1_arg2 (c : Dev nD) :
    W1 (F := Ideal) m ρ c (Proc.devRef .tc main_arg2) = m ((c.tc : Thread nD τ).loc main_arg2) := by
  show StableHlo.after hostOps0 (W0 m ρ c) (Proc.devRef .tc main_arg2) = _
  after_results

theorem W1_arg3 (c : Dev nD) :
    W1 (F := Ideal) m ρ c (Proc.devRef .tc main_arg3) = m ((c.tc : Thread nD τ).loc main_arg3) := by
  show StableHlo.after hostOps0 (W0 m ρ c) (Proc.devRef .tc main_arg3) = _
  after_results

theorem W1_arg4 (c : Dev nD) :
    W1 (F := Ideal) m ρ c (Proc.devRef .tc main_arg4) = m ((c.tc : Thread nD τ).loc main_arg4) := by
  show StableHlo.after hostOps0 (W0 m ρ c) (Proc.devRef .tc main_arg4) = _
  after_results

theorem W1_arg5 (c : Dev nD) :
    W1 (F := Ideal) m ρ c (Proc.devRef .tc main_arg5) = m ((c.tc : Thread nD τ).loc main_arg5) := by
  show StableHlo.after hostOps0 (W0 m ρ c) (Proc.devRef .tc main_arg5) = _
  after_results

/-! ## Region 0: its output array is the projection; the other buffers are as entered -/

theorem W2_v2 (c : Dev nD) :
    W2 (F := Ideal) m ρ c (Proc.devRef .tc main_v2)
      = Cert.HeadScore.projOut (m ((c.tc : Thread nD τ).loc main_arg2)) (Term.wT (m ((c.tc : Thread nD τ).loc main_arg6)) (m ((c.tc : Thread nD τ).loc main_arg7))) := by
  have h : W2 (F := Ideal) m ρ c (Proc.devRef .tc main_v2) = (dat0 (V1 m ρ) c).arrAt 2 cfg0.N := W2_arr m ρ c 2
  rw [h, ProjectionBlocks.array_eq (V1 m ρ) c]
  show Cert.HeadScore.projOut (W1 (F := Ideal) m ρ c (Proc.devRef .tc main_arg2)) (W1 (F := Ideal) m ρ c (Proc.devRef .tc main_v1)) = _
  rw [W1_arg2, W1_v1]

theorem W2_arg1 (c : Dev nD) :
    W2 (F := Ideal) m ρ c (Proc.devRef .tc main_arg1) = W1 (F := Ideal) m ρ c (Proc.devRef .tc main_arg1) :=
  W2_of_ne m ρ c main_arg1 (by decide)

theorem W2_arg3 (c : Dev nD) :
    W2 (F := Ideal) m ρ c (Proc.devRef .tc main_arg3) = W1 (F := Ideal) m ρ c (Proc.devRef .tc main_arg3) :=
  W2_of_ne m ρ c main_arg3 (by decide)

theorem W2_arg4 (c : Dev nD) :
    W2 (F := Ideal) m ρ c (Proc.devRef .tc main_arg4) = W1 (F := Ideal) m ρ c (Proc.devRef .tc main_arg4) :=
  W2_of_ne m ρ c main_arg4 (by decide)

theorem W2_arg5 (c : Dev nD) :
    W2 (F := Ideal) m ρ c (Proc.devRef .tc main_arg5) = W1 (F := Ideal) m ρ c (Proc.devRef .tc main_arg5) :=
  W2_of_ne m ρ c main_arg5 (by decide)

theorem W2_cst (c : Dev nD) :
    W2 (F := Ideal) m ρ c (Proc.devRef .tc main_cst) = W1 (F := Ideal) m ρ c (Proc.devRef .tc main_cst) :=
  W2_of_ne m ρ c main_cst (by decide)

/-! ## The middle stretch: the column halves, the two endpoint rows, the start indices, the row gathers -/

theorem W3_v8 (c : Dev nD) :
    W3 (F := Ideal) m ρ c (Proc.devRef .tc main_v8)
      = Term.dstRaw (W2 (F := Ideal) m ρ c (Proc.devRef .tc main_arg4)) := by
  show StableHlo.after hostOps1 (W2 m ρ c) (Proc.devRef .tc main_v8) = _
  after_results
  rfl

theorem W3_v15 (c : Dev nD) :
    W3 (F := Ideal) m ρ c (Proc.devRef .tc main_v15)
      = Term.rowsAt (Term.qCols (W2 (F := Ideal) m ρ c (Proc.devRef .tc main_v2)))
          (Term.startIdx (Term.dstRaw (W2 (F := Ideal) m ρ c (Proc.devRef .tc main_arg4)))) := by
  show StableHlo.after hostOps1 (W2 m ρ c) (Proc.devRef .tc main_v15) = _
  after_results
  rfl

theorem W3_v22 (c : Dev nD) :
    W3 (F := Ideal) m ρ c (Proc.devRef .tc main_v22)
      = Term.rowsAt (Term.kCols (W2 (F := Ideal) m ρ c (Proc.devRef .tc main_v2)))
          (Term.startIdx (Term.srcRaw (W2 (F := Ideal) m ρ c (Proc.devRef .tc main_arg4)))) := by
  show StableHlo.after hostOps1 (W2 m ρ c) (Proc.devRef .tc main_v22) = _
  after_results
  rfl

theorem W3_arg1 (c : Dev nD) :
    W3 (F := Ideal) m ρ c (Proc.devRef .tc main_arg1) = W2 (F := Ideal) m ρ c (Proc.devRef .tc main_arg1) := by
  show StableHlo.after hostOps1 (W2 m ρ c) (Proc.devRef .tc main_arg1) = _
  after_results

theorem W3_arg3 (c : Dev nD) :
    W3 (F := Ideal) m ρ c (Proc.devRef .tc main_arg3) = W2 (F := Ideal) m ρ c (Proc.devRef .tc main_arg3) := by
  show StableHlo.after hostOps1 (W2 m ρ c) (Proc.devRef .tc main_arg3) = _
  after_results

theorem W3_arg5 (c : Dev nD) :
    W3 (F := Ideal) m ρ c (Proc.devRef .tc main_arg5) = W2 (F := Ideal) m ρ c (Proc.devRef .tc main_arg5) := by
  show StableHlo.after hostOps1 (W2 m ρ c) (Proc.devRef .tc main_arg5) = _
  after_results

theorem W3_cst (c : Dev nD) :
    W3 (F := Ideal) m ρ c (Proc.devRef .tc main_cst) = W2 (F := Ideal) m ρ c (Proc.devRef .tc main_cst) := by
  show StableHlo.after hostOps1 (W2 m ρ c) (Proc.devRef .tc main_cst) = _
  after_results

/-! ## Region 1: its output array is the edge score; the destination vector is as entered -/

theorem W4_v23 (c : Dev nD) :
    W4 (F := Ideal) m ρ c (Proc.devRef .tc main_v23)
      = Cert.HeadScore.edgeOut (W3 (F := Ideal) m ρ c (Proc.devRef .tc main_v15)) (W3 (F := Ideal) m ρ c (Proc.devRef .tc main_v22))
          (W3 (F := Ideal) m ρ c (Proc.devRef .tc main_arg3)) (W3 (F := Ideal) m ρ c (Proc.devRef .tc main_arg5))
          (W3 (F := Ideal) m ρ c (Proc.devRef .tc main_arg1)) (W3 (F := Ideal) m ρ c (Proc.devRef .tc main_cst)) := by
  have h : W4 (F := Ideal) m ρ c (Proc.devRef .tc main_v23) = (dat1 (V3 m ρ) c).arrAt 6 cfg1.N := W4_arr m ρ c 6
  rw [h, EdgeBlocks.array_eq (V3 m ρ) c]

theorem W4_v8 (c : Dev nD) :
    W4 (F := Ideal) m ρ c (Proc.devRef .tc main_v8) = W3 (F := Ideal) m ρ c (Proc.devRef .tc main_v8) :=
  W4_of_ne m ρ c main_v8 (by decide)

/-! ## The last stretch: the scatter-add of the scores into a zero array at the destinations -/

theorem W5_v26 (c : Dev nD) :
    W5 (F := Ideal) m ρ c (Proc.devRef .tc main_v26)
      = Term.scatterTail (W4 (F := Ideal) m ρ c (Proc.devRef .tc main_v8)) (W4 (F := Ideal) m ρ c (Proc.devRef .tc main_v23)) := by
  show StableHlo.after hostOps2 (W4 m ρ c) (Proc.devRef .tc main_v26) = _
  after_results
  rfl

/-- What the last host stretch leaves in the result buffer is the program's result term of the launch contents of the
    argument arrays. -/
theorem result_eq (c : Dev nD) :
    W5 (F := Ideal) m ρ c (Proc.devRef .tc main_v26)
      = Term.result (m ((c.tc : Thread nD τ).loc main_arg2)) (m ((c.tc : Thread nD τ).loc main_arg6)) (m ((c.tc : Thread nD τ).loc main_arg7))
          (m ((c.tc : Thread nD τ).loc main_arg3)) (m ((c.tc : Thread nD τ).loc main_arg4)) (m ((c.tc : Thread nD τ).loc main_arg5))
          (m ((c.tc : Thread nD τ).loc main_arg1)) := by
  rw [W5_v26, W4_v8, W4_v23, W3_v8, W3_v15, W3_v22, W3_arg3, W3_arg5, W3_arg1, W3_cst,
    W2_v2, W2_arg4, W2_arg3, W2_arg5, W2_arg1, W2_cst, W1_arg4, W1_arg3, W1_arg5, W1_arg1, W1_cst]
  rfl

end Cert.KernelIdeal.Read

end
-- ==== Proof.Grouping.lean ====
/-
  The grouping matrix: entry (l, c) of the program's 128 × 16 literal table is 1 when lane l belongs to the head of
  column c and 0 otherwise; summing a lane vector against column c therefore sums the 32 lanes of that head.
-/
import proofs.«423898_j89910845374840_1_alg».proof.Proof.KernelTerm
import Idealize.ShloMosaic.PureOps.Ideal.Laws

noncomputable section

open Idealize.ShloMosaic Idealize.ShloMosaic.ValueIdx
open scoped BigOperators

namespace Cert.KernelIdeal.Grouping

open Cert.KernelIdeal Cert.HeadScore

/-- The table's words, position by position: position p is row p / 16 and column p % 16, and its word is the pattern of
    the real 1 when the row's lane lies in the column's head, the zero word otherwise. All 2048 positions are compared. -/
private theorem lit_word : ∀ p : Fin 2048,
    lit0 p = if p.val / 16 / 32 = (headOf ⟨p.val % 16, Nat.mod_lt _ (by decide)⟩).val then 0x3F800000#32 else 0#32 := by
  decide +kernel

/-- The pattern 0x3F800000 denotes the real 1: sign 0, biased exponent 127, fraction 0. -/
private theorem one_word : Ideal.ofBits .f32 0x3F800000#32 = 1 := by
  simp [Ideal.ofBits, Ideal.ieee, -EReal.coe_mul]; norm_num

/-- Entry (l, c) sits at row-major position 16 l + c. -/
private theorem pos_val (l : Fin 128) (c : Fin 16) : (S128x16.rowMajor (ix2 l c)).val = l.val * 16 + c.val := by
  rw [Shape.rowMajor_val_two]
  rfl

/-- The word at a position known to be 16 l + c. -/
private theorem lit_at (p : Fin 2048) (l : Fin 128) (c : Fin 16) (hp : p.val = l.val * 16 + c.val) :
    lit0 p = if l.val / 32 = (headOf c).val then 0x3F800000#32 else 0#32 := by
  have hc : (⟨p.val % 16, Nat.mod_lt _ (by decide)⟩ : Fin 16) = c := Fin.ext (by show p.val % 16 = c.val; omega)
  have hl : p.val / 16 / 32 = l.val / 32 := by omega
  rw [lit_word p, hc, hl]

/-- The literal table's entries. -/
theorem groupM_apply (l : Fin 128) (c : Fin 16) :
    Term.groupM (ix2 l c) = if l.val / 32 = (headOf c).val then (1 : EReal) else 0 := by
  show Ideal.ofBits .f32 (lit0 (S128x16.rowMajor (ix2 l c))) = _
  rw [lit_at (S128x16.rowMajor (ix2 l c)) l c (pos_val l c)]
  split
  · exact one_word
  · exact Ideal.ofBits_zero_f32

/-- The lanes l with l / 32 = h are exactly the 32 lanes 32 h + d, and d ↦ 32 h + d, l ↦ l % 32 are inverse to each
    other between them; a product with 0 is 0 for every extended real, so the other lanes drop out. -/
private theorem sum_head (f : Fin 128 → EReal) (h : Fin 4) :
    ∑ l : Fin 128, f l * (if l.val / 32 = h.val then (1 : EReal) else 0) = ∑ d : Fin 32, f (laneOf h d) := by
  simp only [mul_ite, mul_one, mul_zero]
  rw [← Finset.sum_filter]
  refine Finset.sum_bij' (fun l _ => (⟨l.val % 32, Nat.mod_lt _ (by decide)⟩ : Fin 32)) (fun d _ => laneOf h d) ?_ ?_ ?_ ?_ ?_
  · intro a _; exact Finset.mem_univ _
  · intro d _
    simp only [Finset.mem_filter, Finset.mem_univ, true_and, laneOf]
    have := d.isLt; omega
  · intro a ha
    simp only [Finset.mem_filter, Finset.mem_univ, true_and] at ha
    apply Fin.ext
    simp only [laneOf]
    omega
  · intro d _
    apply Fin.ext
    simp only [laneOf]
    have := d.isLt; omega
  · intro a ha
    simp only [Finset.mem_filter, Finset.mem_univ, true_and] at ha
    congr 1
    apply Fin.ext
    simp only [laneOf]
    omega

/-- A lane vector summed against a 0/1 column is the sum over the column's head. -/
theorem sum_group (f : Fin 128 → EReal) (c : Fin 16) :
    ∑ l : Fin 128, f l * (if l.val / 32 = (headOf c).val then (1 : EReal) else 0) = ∑ d : Fin 32, f (laneOf (headOf c) d) :=
  sum_head f (headOf c)

end Cert.KernelIdeal.Grouping

end
-- ==== Proof.LibGatherRows2.lean ====
/-
  Two reads of a row gather of a rank-2 table at one element of its result. In the first the start indices are an
  [n × 1] table of row numbers and whole rows are taken (what table[idx] of a rank-2 table prints as): row e, column j of
  the result is the table at row e's start index, read as a signed integer and brought inside the table, at column j.
  In the second the start indices are an [n × 2] table of (row, first column) pairs and a band of C consecutive columns
  of each row is taken (what table[idx, c : c + C] prints as): row e, column j of the result is the table at the row the
  first start index names and at the column j places after the one the second start index names, each start index read
  as a signed integer and brought inside the range that keeps the band inside the table.
-/
import Idealize.ShloMosaic.PureOps.Ideal
import Idealize.ShloMosaic.Lib.ValueIdx

noncomputable section

open Idealize.ShloMosaic Idealize.ShloMosaic.ValueIdx

namespace Cert.LibGatherRows2

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The result's one batch axis is axis 0: axis 1 is the offset axis. -/
private theorem batchDims_eq {s si : Shape} {n C : Nat} (d : GatherDims s si ⟨2, ![n, C]⟩)
    (hoff : d.offsetDims = [1]) : d.batchDims = [0] := by
  show Shape.kept _ d.offsetDims = [0]
  rw [hoff]
  show (List.finRange 2).filter (fun a : Fin 2 => a ∉ ([1] : List (Fin 2))) = [0]
  decide

/-- The operand's one axis that is neither collapsed nor batching is axis 1. -/
private theorem sKept_eq {si t : Shape} {N C0 : Nat} (d : GatherDims ⟨2, ![N, C0]⟩ si t)
    (hcol : d.collapsedSliceDims = [0]) (hob : d.operandBatchingDims = []) : d.sKept = [1] := by
  show Shape.kept _ (d.collapsedSliceDims ++ d.operandBatchingDims) = [1]
  rw [hcol, hob, List.append_nil]
  show (List.finRange 2).filter (fun a : Fin 2 => a ∉ ([0] : List (Fin 2))) = ([1] : List (Fin 2))
  decide

/-- Component c of the start index of a result element is read off the start-index table at the element's row and at
    column c. -/
private theorem siIdx_eq {s : Shape} {n m C : Nat} (d : GatherDims s ⟨2, ![n, m]⟩ ⟨2, ![n, C]⟩)
    (hoff : d.offsetDims = [1]) (hiv : d.indexVectorDim = 1) (j : (⟨2, ![n, C]⟩ : Shape).Idx)
    (c : Fin d.startIndexMap.length) (k : Fin m) (hk : c.val = k.val) :
    d.siIdx j c = ix2 (j 0) k := by
  funext b
  match b with
  | ⟨0, _⟩ =>
    unfold GatherDims.siIdx
    rw [dif_neg (by rw [hiv]; simp)]
    unfold GatherDims.siCoord
    apply Fin.ext
    simp only [Fin.val_cast]
    have e : ∀ (k : Nat) (hk : k < d.batchDims.length), d.batchDims[k] = 0 :=
      fun k hk => getElem_of_eq_singleton _ _ (batchDims_eq d hoff) k hk
    rw [e]
  | ⟨1, _⟩ =>
    unfold GatherDims.siIdx
    rw [dif_pos (by rw [hiv])]
    apply Fin.ext
    show c.val = k.val
    exact hk

/-- On the row axis, which is collapsed and which component c of the start index addresses, the slice starts at that
    component, read signed and brought inside the table. -/
private theorem start_row {N C0 C n m w : Nat} (d : GatherDims ⟨2, ![N, C0]⟩ ⟨2, ![n, m]⟩ ⟨2, ![n, C]⟩)
    (hoff : d.offsetDims = [1]) (hcol : d.collapsedSliceDims = [0]) (hiv : d.indexVectorDim = 1)
    (hmem : (0 : Fin 2) ∈ d.startIndexMap) (k : Fin m) (hk : d.startIndexMap.idxOf (0 : Fin 2) = k.val)
    (idx : IVec ⟨2, ![n, m]⟩ w) (j : (⟨2, ![n, C]⟩ : Shape).Idx) :
    d.start j idx 0 = min (idx (ix2 (j 0) k)).toInt.toNat (N - 1) := by
  have hsl : d.sliceSizes 0 = 1 := d.slice_collapsed 0 (by rw [hcol]; exact List.mem_singleton.mpr rfl)
  unfold GatherDims.start
  rw [dif_pos hmem, siIdx_eq d hoff hiv j _ k hk, hsl]
  rfl

/-- On the column axis, when component c of the start index addresses it, the slice starts at that component, read
    signed and brought into the range that keeps the slice inside the table. -/
private theorem start_col {N C0 C n m w : Nat} (d : GatherDims ⟨2, ![N, C0]⟩ ⟨2, ![n, m]⟩ ⟨2, ![n, C]⟩)
    (hoff : d.offsetDims = [1]) (hiv : d.indexVectorDim = 1) (hss : d.sliceSizes = ![1, C])
    (hmem : (1 : Fin 2) ∈ d.startIndexMap) (k : Fin m) (hk : d.startIndexMap.idxOf (1 : Fin 2) = k.val)
    (idx : IVec ⟨2, ![n, m]⟩ w) (j : (⟨2, ![n, C]⟩ : Shape).Idx) :
    d.start j idx 1 = min (idx (ix2 (j 0) k)).toInt.toNat (C0 - C) := by
  have hsl : d.sliceSizes 1 = C := by rw [hss]; rfl
  unfold GatherDims.start
  rw [dif_pos hmem, siIdx_eq d hoff hiv j _ k hk, hsl]
  rfl

/-- On an axis no component of the start index addresses, the slice starts at 0. -/
private theorem start_not_mem {s si t : Shape} {w : Nat} (d : GatherDims s si t) (idx : IVec si w) (j : t.Idx)
    (b : Fin s.rank) (hb : b ∉ d.startIndexMap) : d.start j idx b = 0 := by
  unfold GatherDims.start
  rw [dif_neg hb]

/-- The collapsed row axis has no offset coordinate. -/
private theorem offCoord_row {si t : Shape} {N C0 : Nat} (d : GatherDims ⟨2, ![N, C0]⟩ si t)
    (hcol : d.collapsedSliceDims = [0]) (j : t.Idx) : d.offCoord j 0 = 0 := by
  apply d.offCoord_eq_zero
  intro h
  exact ((d.mem_sKept 0).1 h).1 (by rw [hcol]; exact List.mem_singleton.mpr rfl)

/-- The column axis's offset coordinate is the result's column. -/
private theorem offCoord_col {si : Shape} {N C0 n C : Nat} (d : GatherDims ⟨2, ![N, C0]⟩ si ⟨2, ![n, C]⟩)
    (hoff : d.offsetDims = [1]) (hcol : d.collapsedSliceDims = [0]) (hob : d.operandBatchingDims = [])
    (j : (⟨2, ![n, C]⟩ : Shape).Idx) : d.offCoord j 1 = (j 1).val := by
  have hk : (1 : Fin 2) ∈ d.sKept := by
    rw [sKept_eq d hcol hob]
    exact List.mem_singleton.mpr rfl
  unfold GatherDims.offCoord
  rw [dif_pos hk, getElem_of_eq_singleton _ _ hoff]

/-- The whole-row gather read at (e, j): the table at row e's start index, read signed and brought into [0, N - 1], at
    column j. -/
theorem gather_rows2 {α : Type} {N C n w : Nat} (d : GatherDims ⟨2, ![N, C]⟩ ⟨2, ![n, 1]⟩ ⟨2, ![n, C]⟩)
    (hoff : d.offsetDims = [1]) (hcol : d.collapsedSliceDims = [0]) (hob : d.operandBatchingDims = [])
    (hsb : d.startIndicesBatchingDims = []) (hmap : d.startIndexMap = [0]) (hiv : d.indexVectorDim = 1)
    (hss : d.sliceSizes = ![1, C])
    (x : (⟨2, ![N, C]⟩ : Shape).Idx → α) (idx : IVec ⟨2, ![n, 1]⟩ w) (e : Fin n) (j : Fin C) (hN : 0 < N) :
    Host.gather d x idx (ix2 e j)
      = x (ix2 (⟨min (idx (ix2 e (0 : Fin 1))).toInt.toNat (N - 1), by omega⟩ : Fin N) j) := by
  unfold Host.gather
  congr 1
  funext b
  have hb : ∀ b : Fin 2, b ∉ d.operandBatchingDims := fun b => by rw [hob]; exact List.not_mem_nil
  match b with
  | ⟨0, _⟩ =>
    apply Fin.ext
    show d.start (ix2 e j) idx 0 + d.batchCoord (ix2 e j) 0 + d.offCoord (ix2 e j) 0 = _
    rw [start_row d hoff hcol hiv (by rw [hmap]; exact List.mem_singleton.mpr rfl) (0 : Fin 1) (by rw [hmap]; rfl),
      d.batchCoord_eq_zero _ _ (hb 0), offCoord_row d hcol]
    rfl
  | ⟨1, _⟩ =>
    apply Fin.ext
    show d.start (ix2 e j) idx 1 + d.batchCoord (ix2 e j) 1 + d.offCoord (ix2 e j) 1 = _
    rw [start_not_mem d idx _ 1 (by rw [hmap]; show (1 : Fin 2) ∉ ([0] : List (Fin 2)); decide), d.batchCoord_eq_zero _ _ (hb 1), offCoord_col d hoff hcol hob]
    show 0 + 0 + j.val = j.val
    omega

/-- The band gather read at (e, j): the table at the row the first start index of row e names, brought into [0, N - 1],
    and at the column j places after the one the second start index names, brought into [0, C0 - C]. -/
theorem gather_band2 {α : Type} {N C0 C n w : Nat} (d : GatherDims ⟨2, ![N, C0]⟩ ⟨2, ![n, 2]⟩ ⟨2, ![n, C]⟩)
    (hoff : d.offsetDims = [1]) (hcol : d.collapsedSliceDims = [0]) (hob : d.operandBatchingDims = [])
    (hsb : d.startIndicesBatchingDims = []) (hmap : d.startIndexMap = [0, 1]) (hiv : d.indexVectorDim = 1)
    (hss : d.sliceSizes = ![1, C])
    (x : (⟨2, ![N, C0]⟩ : Shape).Idx → α) (idx : IVec ⟨2, ![n, 2]⟩ w) (e : Fin n) (j : Fin C) (hN : 0 < N) (hC : C ≤ C0) :
    Host.gather d x idx (ix2 e j)
      = x (ix2 (⟨min (idx (ix2 e (0 : Fin 2))).toInt.toNat (N - 1), by omega⟩ : Fin N)
          (⟨min (idx (ix2 e (1 : Fin 2))).toInt.toNat (C0 - C) + j.val, by have := j.isLt; omega⟩ : Fin C0)) := by
  unfold Host.gather
  congr 1
  funext b
  have hb : ∀ b : Fin 2, b ∉ d.operandBatchingDims := fun b => by rw [hob]; exact List.not_mem_nil
  match b with
  | ⟨0, _⟩ =>
    apply Fin.ext
    show d.start (ix2 e j) idx 0 + d.batchCoord (ix2 e j) 0 + d.offCoord (ix2 e j) 0 = _
    rw [start_row d hoff hcol hiv (by rw [hmap]; show (0 : Fin 2) ∈ ([0, 1] : List (Fin 2)); decide) (0 : Fin 2) (by rw [hmap]; rfl),
      d.batchCoord_eq_zero _ _ (hb 0), offCoord_row d hcol]
    rfl
  | ⟨1, _⟩ =>
    apply Fin.ext
    show d.start (ix2 e j) idx 1 + d.batchCoord (ix2 e j) 1 + d.offCoord (ix2 e j) 1 = _
    rw [start_col d hoff hiv hss (by rw [hmap]; show (1 : Fin 2) ∈ ([0, 1] : List (Fin 2)); decide) (1 : Fin 2) (by rw [hmap]; rfl),
      d.batchCoord_eq_zero _ _ (hb 1), offCoord_col d hoff hcol hob]
    rfl

/-- The band gather whose second start index is the zero word takes the first C columns: row e, column j of the result
    is the table at the row the first start index names, brought into [0, N - 1], at column j. -/
theorem gather_band2_zero {α : Type} {N C0 C n w : Nat} (d : GatherDims ⟨2, ![N, C0]⟩ ⟨2, ![n, 2]⟩ ⟨2, ![n, C]⟩)
    (hoff : d.offsetDims = [1]) (hcol : d.collapsedSliceDims = [0]) (hob : d.operandBatchingDims = [])
    (hsb : d.startIndicesBatchingDims = []) (hmap : d.startIndexMap = [0, 1]) (hiv : d.indexVectorDim = 1)
    (hss : d.sliceSizes = ![1, C])
    (x : (⟨2, ![N, C0]⟩ : Shape).Idx → α) (idx : IVec ⟨2, ![n, 2]⟩ w) (e : Fin n) (j : Fin C) (hN : 0 < N) (hC : C ≤ C0)
    (hz : idx (ix2 e (1 : Fin 2)) = 0#w) :
    Host.gather d x idx (ix2 e j)
      = x (ix2 (⟨min (idx (ix2 e (0 : Fin 2))).toInt.toNat (N - 1), by omega⟩ : Fin N)
          (⟨j.val, lt_of_lt_of_le j.isLt hC⟩ : Fin C0)) := by
  rw [gather_band2 d hoff hcol hob hsb hmap hiv hss x idx e j hN hC]
  congr 1
  funext b
  match b with
  | ⟨0, _⟩ => rfl
  | ⟨1, _⟩ =>
    apply Fin.ext
    show min (idx (ix2 e (1 : Fin 2))).toInt.toNat (C0 - C) + j.val = j.val
    rw [hz, BitVec.toInt_zero]
    simp

end Cert.LibGatherRows2

end
-- ==== Proof.KernelScore.lean ====
/-
  The kernel's edge contributions are the specification's: the gathered halves of the projection are the node
  projections at the destination and source nodes, and the product with the grouping matrix sums each head's lanes.
-/
import proofs.«423898_j89910845374840_1_alg».proof.Proof.KernelTerm
import proofs.«423898_j89910845374840_1_alg».proof.Proof.Grouping
import proofs.«423898_j89910845374840_1_alg».proof.Proof.LibGatherRows2
import Idealize.ShloMosaic.Lib.Pipeline.Value
import Idealize.ShloMosaic.Lib.ValueLayout

noncomputable section

open Idealize.ShloMosaic Idealize.ShloMosaic.ValueIdx
open scoped BigOperators

namespace Cert.KernelIdeal.Score

open Cert.KernelIdeal Cert.HeadScore

/-- Row e of the gathered table is the table's row at the node that e's start index names. -/
private theorem rowsAt_apply (t : FVec Ideal S50000x128 .f32) (i : IVec S1600000x1 32) (e : Fin 1600000) (l : Fin 128) :
    Term.rowsAt t i (ix2 e l) = t (ix2 (nodeOf i e) l) := by
  unfold Term.rowsAt
  exact Cert.LibGatherRows2.gather_rows2 _ rfl rfl rfl rfl rfl rfl rfl t i e l (by decide)

/-- The first column half at (n, l) is the 256-column array at (n, l). -/
private theorem qCols_apply (qk : FVec Ideal S50000x256 .f32) (n : Fin 50000) (l : Fin 128) :
    Term.qCols qk (ix2 n l) = qk (ix2 n (⟨l.val, by omega⟩ : Fin 256)) :=
  slice2_axis1_apply 0 qk _ n l _ (by simp)

/-- The second column half at (n, l) is the 256-column array at (n, 128 + l). -/
private theorem kCols_apply (qk : FVec Ideal S50000x256 .f32) (n : Fin 50000) (l : Fin 128) :
    Term.kCols qk (ix2 n l) = qk (ix2 n (⟨128 + l.val, by omega⟩ : Fin 256)) :=
  slice2_axis1_apply 128 qk _ n l _ rfl

/-- The transposed stack at (k, j) with j < 128 is Wq at (j, k). -/
private theorem wT_left (Wq Wk : FVec Ideal S128x128 .f32) (k : Fin 128) (j : Fin 128) :
    Term.wT Wq Wk (ix2 k (⟨j.val, by omega⟩ : Fin 256)) = Wq (ix2 j k) := by
  unfold Term.wT
  rw [transpose_ix2_apply]
  refine concatenate_pair_apply_left (t := S256x128) (s₁ := S128x128) (s₂ := S128x128) _ _ _ _ _ rfl (ix2 j k) ?_
  intro b
  match b with
  | ⟨0, _⟩ => rfl
  | ⟨1, _⟩ => rfl

/-- The transposed stack at (k, 128 + j) is Wk at (j, k). -/
private theorem wT_right (Wq Wk : FVec Ideal S128x128 .f32) (k : Fin 128) (j : Fin 128) :
    Term.wT Wq Wk (ix2 k (⟨128 + j.val, by omega⟩ : Fin 256)) = Wk (ix2 j k) := by
  unfold Term.wT
  rw [transpose_ix2_apply]
  refine concatenate_pair_apply_right (t := S256x128) (s₁ := S128x128) (s₂ := S128x128) _ _ _ _ _ rfl rfl (ix2 j k) ?_ ?_
  · intro b hb
    match b, hb with
    | ⟨0, _⟩, hb => exact absurd rfl hb
    | ⟨1, _⟩, _ => rfl
  · show j.val + 128 = 128 + j.val
    omega

/-- The first half of x · [Wq; Wk]ᵀ at (n, l) is Σ_k x[n, k] · Wq[l, k]: the node projection by Wq. -/
private theorem q_apply (x : FVec Ideal S50000x128 .f32) (Wq Wk : FVec Ideal S128x128 .f32) (n : Fin 50000) (l : Fin 128) :
    Term.qCols (projOut x (Term.wT Wq Wk)) (ix2 n l) = proj x Wq n l := by
  rw [qCols_apply]
  show ∑ k : Fin 128, x (ix2 n k) * Term.wT Wq Wk (ix2 k (⟨l.val, by omega⟩ : Fin 256)) = ∑ k : Fin 128, x (ix2 n k) * Wq (ix2 l k)
  simp only [wT_left]

/-- The second half of x · [Wq; Wk]ᵀ at (n, l) is Σ_k x[n, k] · Wk[l, k]: the node projection by Wk. -/
private theorem k_apply (x : FVec Ideal S50000x128 .f32) (Wq Wk : FVec Ideal S128x128 .f32) (n : Fin 50000) (l : Fin 128) :
    Term.kCols (projOut x (Term.wT Wq Wk)) (ix2 n l) = proj x Wk n l := by
  rw [kCols_apply]
  show ∑ k : Fin 128, x (ix2 n k) * Term.wT Wq Wk (ix2 k (⟨128 + l.val, by omega⟩ : Fin 256)) = ∑ k : Fin 128, x (ix2 n k) * Wk (ix2 l k)
  simp only [wT_right]

/-- The kernel's edge contributions, index by index, are the specification's. -/
theorem edges_eq (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    Term.edges x Wq Wk w ei cut sph
      = contrib x Wq Wk w cut sph (Term.startIdx (Term.dstRaw ei)) (Term.startIdx (Term.srcRaw ei)) := by
  funext i
  obtain ⟨e, c, rfl⟩ : ∃ (e : Fin 1600000) (c : Fin 16), i = ix2 e c := ⟨i 0, i 1, eq_ix2 i⟩
  have h0 : (ix2 e c) 0 = e := rfl
  have h1 : (ix2 e c) 1 = c := rfl
  unfold Term.edges edgeOut contrib contribAt
  -- each lane's factor is q[dst, l] · w[e, l] · k[src, l] times the 0/1 entry of the grouping matrix
  simp only [h0, h1, Grouping.groupM_apply, rowsAt_apply, q_apply, k_apply]
  -- the 0/1 column keeps the 32 lanes of the column's head
  rw [Grouping.sum_group (fun l => proj x Wq (nodeOf (Term.startIdx (Term.dstRaw ei)) e) l * w (ix2 e l)
    * proj x Wk (nodeOf (Term.startIdx (Term.srcRaw ei)) e) l) c]
  unfold lane
  rfl

end Cert.KernelIdeal.Score

end
-- ==== Proof.ReferenceTerm.lean ====
/-
  The reference program's result as one term of its eight argument arrays: the node projections viewed as four heads
  of 32 lanes, gathered at the destination and source nodes; the per-edge, per-head sum of the triple products divided
  by the divisor and scaled by the edge's cutoff; each head's score repeated over the head's columns through a table of
  column-to-head indices that the program computes from the repeat counts [1, 3, 5, 7]; the product with the spherical
  components; and the sum over each destination node.
-/
import proofs.«423898_j89910845374840_1_alg».proof.Proof.Gen.ReferenceIdeal
import proofs.«423898_j89910845374840_1_alg».proof.Proof.HeadScore

noncomputable section

open Idealize.ShloMosaic Idealize.ShloMosaic.ValueIdx

namespace Cert.ReferenceIdeal.Term

open Cert.ReferenceIdeal Cert.ReferenceIdeal.Facts₀

/-- Row r of the edge index table as a vector of words. -/
def endpoint (ei : IVec S2x1600000 32) (off : Fin 2 → Nat) (h : S2x1600000.Slices off S1x1600000) : IVec S1600000 32 :=
  shapeCast S1600000 (extractStridedSlice S1x1600000 off ei h) shapeCasts_S1x1600000_S1600000

/-- The sources: row 0. -/
def srcRaw (ei : IVec S2x1600000 32) : IVec S1600000 32 := endpoint ei ![0, 0] slices_S2x1600000_S1x1600000_0_0
/-- The destinations: row 1. -/
def dstRaw (ei : IVec S2x1600000 32) : IVec S1600000 32 := endpoint ei ![1, 0] slices_S2x1600000_S1x1600000_1_0

/-- The start indices a row gather takes: a negative word has 50000 added, then the vector is a column. -/
def startIdx (d : IVec S1600000 32) : IVec S1600000x1 32 :=
  broadcastInDim S1600000x1 ![0] bcast_S1600000_S1600000x1_0
    (select (cmpi .slt d (broadcastInDim S1600000 ![] bcast_S_S1600000 (constantI S_ 32 0#32)))
      (addi d (broadcastInDim S1600000 ![] bcast_S_S1600000 (constantI S_ 32 50000#32))) d)

/-- The contributions summed over each destination node, from a zero array. -/
def scatterTail (d : IVec S1600000 32) (u : FVec Ideal S1600000x16 .f32) : FVec Ideal S50000x16 .f32 :=
  Host.scatterAdd scatter_S50000x16_S1600000x1_S1600000x16_1_0_0_1
    (broadcastInDim S50000x16 ![] bcast_S_S50000x16 (constant S_ .f32 0x00000000#32))
    (broadcastInDim S1600000x1 ![0] bcast_S1600000_S1600000x1_0 d) u

/-- x · Wᵀ, each row viewed as 4 heads of 32 lanes. -/
def heads (x : FVec Ideal S50000x128 .f32) (W : FVec Ideal S128x128 .f32) : FVec Ideal S50000x4x32 .f32 :=
  shapeCast S50000x4x32
    (Host.dotGeneral dot_S50000x128_S128x128_S50000x128_1_0_0_1_n_n none x (transpose S128x128 [1, 0] W transposes_S128x128_S128x128_1_0))
    shapeCasts_S50000x128_S50000x4x32

/-- The 4 × 32 slabs of a node table at the start indices. -/
def slabsAt (t : FVec Ideal S50000x4x32 .f32) (i : IVec S1600000x1 32) : FVec Ideal S1600000x4x32 .f32 :=
  Host.gather gather_S50000x4x32_S1600000x1_S1600000x4x32_12_0_n_n_0_1_1432 t i

/-- The per-edge, per-head score: the lanes' triple products summed from zero, over the divisor, times the cutoff. -/
def score (x : FVec Ideal S50000x128 .f32) (Wq Wk : FVec Ideal S128x128 .f32) (w : FVec Ideal S1600000x128 .f32)
    (ei : IVec S2x1600000 32) (cut : FVec Ideal S1600000x1 .f32) : FVec Ideal S1600000x4 .f32 :=
  mulf
    (Host.divf
      (Host.reduceAdd
        (mulf (mulf (slabsAt (heads x Wq) (startIdx (dstRaw ei))) (shapeCast S1600000x4x32 w shapeCasts_S1600000x128_S1600000x4x32))
          (slabsAt (heads x Wk) (startIdx (srcRaw ei))))
        (constant S_ .f32 0x00000000#32) reducesTo_S1600000x4x32_S1600000x4_d2 h_S_)
      (broadcastInDim S1600000x4 ![] bcast_S_S1600000x4 (constant S_ .f32 0x40B504F3#32)))
    (broadcastInDim S1600000x4 ![0, 1] bcast_S1600000x1_S1600000x4_0_1 cut)

/-- The repeat counts [1, 3, 5, 7]. -/
def counts : IVec S4 32 := fun i => lit0 (S4.rowMajor i)

/-- The counts rolled one place: [7, 1, 3, 5]. -/
def rolled : IVec S4 32 :=
  concatenate S4 0 [⟨S1, extractStridedSlice S1 ![3] counts slices_S4_S1_3⟩, ⟨S3, extractStridedSlice S3 ![0] counts slices_S4_S3_0⟩]
    concatenates_S1_S3_S4_d0

/-- Entry 0 set to zero: [0, 1, 3, 5]. -/
def exclusive : IVec S4 32 :=
  Host.scatter scatter_S4_S1_S__n_0_0_0 (fun _ b => b) rolled (broadcastInDim S1 ![] bcast_S_S1 (constantI S_ 32 0#32)) (constantI S_ 32 0#32)

/-- Running sums: the first column of each head, [0, 1, 4, 9]. -/
def firstCol : IVec S4 32 :=
  Host.reduceWindow IntOp.addi ![4] ![1] ![3] ![0] exclusive (broadcastInDim S_ ![] bcast_S_S_ (constantI S_ 32 0#32))
    reduceWindows_S4_S4_w4s1p3_0 h_S_

/-- The first columns as scatter positions: a negative word has 16 added, then the vector is a column. -/
def firstColPos : IVec S4x1 32 :=
  broadcastInDim S4x1 ![0] bcast_S4_S4x1_0
    (select (cmpi .slt firstCol (broadcastInDim S4 ![] bcast_S_S4 (constantI S_ 32 0#32)))
      (addi firstCol (broadcastInDim S4 ![] bcast_S_S4 (constantI S_ 32 16#32))) firstCol)

/-- A one at each head's first column among sixteen zeros. -/
def marks : IVec S16 32 :=
  Host.scatter scatter_S16_S4x1_S4_n_0_0_1 IntOp.addi (broadcastInDim S16 ![] bcast_S_S16 (constantI S_ 32 0#32)) firstColPos
    (broadcastInDim S4 ![] bcast_S_S4 (constantI S_ 32 1#32))

/-- Running sums of the marks, less one: the head of each column. -/
def repIdx : IVec S16 32 :=
  subi
    (Host.reduceWindow IntOp.addi ![16] ![1] ![15] ![0] marks (broadcastInDim S_ ![] bcast_S_S_ (constantI S_ 32 0#32))
      reduceWindows_S16_S16_w16s1p15_0 h_S_)
    (broadcastInDim S16 ![] bcast_S_S16 (constantI S_ 32 1#32))

/-- The take's index column: a negative word has 4 added. -/
def takeCol (idx : IVec S16 32) : IVec S16x1 32 :=
  broadcastInDim S16x1 ![0] bcast_S16_S16x1_0
    (select (cmpi .slt idx (broadcastInDim S16 ![] bcast_S_S16 (constantI S_ 32 0#32)))
      (addi idx (broadcastInDim S16 ![] bcast_S_S16 (constantI S_ 32 4#32))) idx)

/-- Which of the sixteen indices lie in [0, 3]. -/
def takeInRange (idx : IVec S16 32) : IVec S16 1 :=
  Host.reduce IntOp.andi
    (andi (cmpi .sge (takeCol idx) (broadcastInDim S16x1 ![] bcast_S_S16x1 (constantI S_ 32 0#32)))
      (cmpi .sle (takeCol idx) (broadcastInDim S16x1 ![0, 1] bcast_S1x1_S16x1_0_1 (broadcastInDim S1x1 ![1] bcast_S1_S1x1_1 (constantI S1 32 3#32)))))
    (constantI S_ 1 1#1) reducesTo_S16x1_S16_d1 h_S_

/-- Columns of a at the sixteen indices; where an index is out of range, the fill value. -/
def take (a : FVec Ideal S1600000x4 .f32) (idx : IVec S16 32) : FVec Ideal S1600000x16 .f32 :=
  select (broadcastInDim S1600000x16 ![1] bcast_S16_S1600000x16_1 (takeInRange idx))
    (Host.gather gather_S1600000x4_S16x1_S1600000x16_0_1_n_n_1_1_16000001 a (takeCol idx))
    (broadcastInDim S1600000x16 ![] bcast_S_S1600000x16 (constant S_ .f32 0x7FC00000#32))

/-- The edge contributions as the reference computes them. -/
def edges (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    FVec Ideal S1600000x16 .f32 :=
  mulf (take (score x Wq Wk w ei cut) repIdx) sph

/-- The reference program's result. -/
def result (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    FVec Ideal S50000x16 .f32 :=
  scatterTail (dstRaw ei) (edges x Wq Wk w ei cut sph)

end Cert.ReferenceIdeal.Term

end
-- ==== Proof.ReferenceRun.lean ====
/-
  The reference program's run: its @main as one list of host operations (the outlined functions' operations at their
  call sites), every weakly fair execution terminating with each buffer at the operations' fold over the launch memory;
  the result buffer read back as the reference's result term of its argument arrays, the arguments unchanged.
-/
import proofs.«423898_j89910845374840_1_alg».proof.Proof.Gen.ReferenceIdeal
import proofs.«423898_j89910845374840_1_alg».proof.Proof.ReferenceTerm
import Idealize.ShloMosaic.Lib.StableHlo.Run

noncomputable section

open Idealize.ShloMosaic Idealize.ShloMosaic.ValueIdx
open scoped BigOperators

namespace Cert.ReferenceIdeal.Run

open Cert.ReferenceIdeal Cert.ReferenceIdeal.Gen Idealize.ShloMosaic.TcCoe Idealize.SL.Sem Idealize.ShloMosaic.StableHlo

section Line

variable {F : FTy → Type} [FloatOps F]

/-- The first stretch of @main's operations, in order: the two projections x · Wᵀ viewed as heads, the two rows of the edge table, the start indices, the gathered slabs, the triple products summed over the lanes, the divisor and the cutoff — through the per-edge, per-head score; the first is the table of repeat counts. -/
abbrev opsA : List (HloOp τ sig (Elt F)) :=
  [ StableHlo.nullary main_c (fun i => lit0 (S4.rowMajor i)),
    StableHlo.unary main_arg6 main_v0 ((transpose S128x128 [1, 0] · transposes_S128x128_S128x128_1_0) : (⟨S128x128, .f32⟩ : BufTy).Contents (Elt F) → (⟨S128x128, .f32⟩ : BufTy).Contents (Elt F)),
    StableHlo.binary main_arg2 main_v0 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v1 main_v2 rfl shapeCasts_S50000x128_S50000x4x32,
    StableHlo.unary main_arg7 main_v3 ((transpose S128x128 [1, 0] · transposes_S128x128_S128x128_1_0) : (⟨S128x128, .f32⟩ : BufTy).Contents (Elt F) → (⟨S128x128, .f32⟩ : BufTy).Contents (Elt F)),
    StableHlo.binary main_arg2 main_v3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.reshape main_v4 main_v5 rfl shapeCasts_S50000x128_S50000x4x32,
    StableHlo.unary main_arg4 main_v6 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v6 main_v7 rfl shapeCasts_S1x1600000_S1600000,
    StableHlo.unary main_arg4 main_v8 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v8 main_v9 rfl shapeCasts_S1x1600000_S1600000,
    StableHlo.nullary main_c_0 (constantI S_ 32 0#32),
    StableHlo.unary main_c_0 main_v10 (broadcastInDim S1600000 ![] bcast_S_S1600000 : (⟨S_, .i32⟩ : BufTy).Contents (Elt F) → (⟨S1600000, .i32⟩ : BufTy).Contents (Elt F)),
    StableHlo.binary main_v9 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_1 (constantI S_ 32 50000#32),
    StableHlo.unary main_c_1 main_v12 (broadcastInDim S1600000 ![] bcast_S_S1600000 : (⟨S_, .i32⟩ : BufTy).Contents (Elt F) → (⟨S1600000, .i32⟩ : BufTy).Contents (Elt F)),
    StableHlo.binary main_v9 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_v9 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)),
    StableHlo.binary main_v2 main_v15 main_v16 ((fun x i => Host.gather gather_S50000x4x32_S1600000x1_S1600000x4x32_12_0_n_n_0_1_1432 x i) : (⟨S50000x4x32, .f32⟩ : BufTy).Contents (Elt F) → (⟨S1600000x1, .i32⟩ : BufTy).Contents (Elt F) → (⟨S1600000x4x32, .f32⟩ : BufTy).Contents (Elt F)),
    StableHlo.nullary main_c_2 (constantI S_ 32 0#32),
    StableHlo.unary main_c_2 main_v17 (broadcastInDim S1600000 ![] bcast_S_S1600000 : (⟨S_, .i32⟩ : BufTy).Contents (Elt F) → (⟨S1600000, .i32⟩ : BufTy).Contents (Elt F)),
    StableHlo.binary main_v7 main_v17 main_v18 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 50000#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v7 main_v19 main_v20 (addi : (⟨S1600000, .i32⟩ : BufTy).Contents (Elt F) → (⟨S1600000, .i32⟩ : BufTy).Contents (Elt F) → (⟨S1600000, .i32⟩ : BufTy).Contents (Elt F)),
    StableHlo.ternary main_v18 main_v20 main_v7 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v21 main_v22 (broadcastInDim S1600000x1 ![0] bcast_S1600000_S1600000x1_0 : (⟨S1600000, .i32⟩ : BufTy).Contents (Elt F) → (⟨S1600000x1, .i32⟩ : BufTy).Contents (Elt F)),
    StableHlo.binary main_v5 main_v22 main_v23 ((fun x i => Host.gather gather_S50000x4x32_S1600000x1_S1600000x4x32_12_0_n_n_0_1_1432 x i) : (⟨S50000x4x32, .f32⟩ : BufTy).Contents (Elt F) → (⟨S1600000x1, .i32⟩ : BufTy).Contents (Elt F) → (⟨S1600000x4x32, .f32⟩ : BufTy).Contents (Elt F)),
    StableHlo.reshape main_arg3 main_v24 rfl shapeCasts_S1600000x128_S1600000x4x32,
    StableHlo.binary main_v16 main_v24 main_v25 (mulf : (⟨S1600000x4x32, .f32⟩ : BufTy).Contents (Elt F) → (⟨S1600000x4x32, .f32⟩ : BufTy).Contents (Elt F) → (⟨S1600000x4x32, .f32⟩ : BufTy).Contents (Elt F)),
    StableHlo.binary main_v25 main_v23 main_v26 (mulf : (⟨S1600000x4x32, .f32⟩ : BufTy).Contents (Elt F) → (⟨S1600000x4x32, .f32⟩ : BufTy).Contents (Elt F) → (⟨S1600000x4x32, .f32⟩ : BufTy).Contents (Elt F)),
    StableHlo.nullary main_cst (constant S_ .f32 0x00000000#32),
    StableHlo.binary main_v26 main_cst main_v27 ((fun x v => Host.reduceAdd x v reducesTo_S1600000x4x32_S1600000x4_d2 h_S_) : (⟨S1600000x4x32, .f32⟩ : BufTy).Contents (Elt F) → (⟨S_, .f32⟩ : BufTy).Contents (Elt F) → (⟨S1600000x4, .f32⟩ : BufTy).Contents (Elt F)),
    StableHlo.nullary main_cst_4 (constant S_ .f32 0x40B504F3#32),
    StableHlo.unary main_cst_4 main_v28 (broadcastInDim S1600000x4 ![] bcast_S_S1600000x4 : (⟨S_, .f32⟩ : BufTy).Contents (Elt F) → (⟨S1600000x4, .f32⟩ : BufTy).Contents (Elt F)),
    StableHlo.binary main_v27 main_v28 main_v29 (Host.divf : (⟨S1600000x4, .f32⟩ : BufTy).Contents (Elt F) → (⟨S1600000x4, .f32⟩ : BufTy).Contents (Elt F) → (⟨S1600000x4, .f32⟩ : BufTy).Contents (Elt F)),
    StableHlo.unary main_arg5 main_v30 (broadcastInDim S1600000x4 ![0, 1] bcast_S1600000x1_S1600000x4_0_1 : (⟨S1600000x1, .f32⟩ : BufTy).Contents (Elt F) → (⟨S1600000x4, .f32⟩ : BufTy).Contents (Elt F)),
    StableHlo.binary main_v29 main_v30 main_v31 (mulf : (⟨S1600000x4, .f32⟩ : BufTy).Contents (Elt F) → (⟨S1600000x4, .f32⟩ : BufTy).Contents (Elt F) → (⟨S1600000x4, .f32⟩ : BufTy).Contents (Elt F)) ]

/-- The counts rolled one place: the last entry, the first three, their concatenation. -/
abbrev opsB1 : List (HloOp τ sig (Elt F)) :=
  [ StableHlo.TRef.unary (.of main_c : StableHlo.TRef sig ⟨S4, .i32⟩) main_call0.v0 (extractStridedSlice S1 ![3] · slices_S4_S1_3),
    StableHlo.TRef.unary (.of main_c : StableHlo.TRef sig ⟨S4, .i32⟩) main_call0.v1 (extractStridedSlice S3 ![0] · slices_S4_S3_0),
    StableHlo.TRef.binary main_call0.v0 main_call0.v1 main_call0.v2 (fun a b => concatenate S4 0 [⟨S1, a⟩, ⟨S3, b⟩] concatenates_S1_S3_S4_d0) ]

/-- From the rolled counts to the column-to-head table: entry 0 zeroed, the running sums, their positions marked among sixteen zeros, the running sums of the marks, less one. -/
abbrev opsB2 : List (HloOp τ sig (Elt F)) :=
  [ StableHlo.nullary main_c_5 (constantI S_ 32 0#32),
    StableHlo.unary main_c_5 main_v33 (broadcastInDim S1 ![] bcast_S_S1 : (⟨S_, .i32⟩ : BufTy).Contents (Elt F) → (⟨S1, .i32⟩ : BufTy).Contents (Elt F)),
    StableHlo.nullary main_c_6 (constantI S_ 32 0#32),
    StableHlo.ternary main_v32 main_v33 main_c_6 main_v34 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v34 : StableHlo.TRef sig ⟨S4, .i32⟩) main_call1.call0.v0 main_call1.call0.v1 (fun x v => Host.reduceWindow IntOp.addi ![4] ![1] ![3] ![0] x v reduceWindows_S4_S4_w4s1p3_0 h_S_),
    StableHlo.nullary main_c_7 (constantI S_ 32 0#32),
    StableHlo.unary main_c_7 main_v36 (broadcastInDim S16 ![] bcast_S_S16 : (⟨S_, .i32⟩ : BufTy).Contents (Elt F) → (⟨S16, .i32⟩ : BufTy).Contents (Elt F)),
    StableHlo.nullary main_c_8 (constantI S_ 32 0#32),
    StableHlo.unary main_c_8 main_v37 (broadcastInDim S4 ![] bcast_S_S4 : (⟨S_, .i32⟩ : BufTy).Contents (Elt F) → (⟨S4, .i32⟩ : BufTy).Contents (Elt F)),
    StableHlo.binary main_v35 main_v37 main_v38 (cmpi .slt : (⟨S4, .i32⟩ : BufTy).Contents (Elt F) → (⟨S4, .i32⟩ : BufTy).Contents (Elt F) → (⟨S4, .i1⟩ : BufTy).Contents (Elt F)),
    StableHlo.nullary main_c_9 (constantI S_ 32 16#32),
    StableHlo.unary main_c_9 main_v39 (broadcastInDim S4 ![] bcast_S_S4 : (⟨S_, .i32⟩ : BufTy).Contents (Elt F) → (⟨S4, .i32⟩ : BufTy).Contents (Elt F)),
    StableHlo.binary main_v35 main_v39 main_v40 (addi : (⟨S4, .i32⟩ : BufTy).Contents (Elt F) → (⟨S4, .i32⟩ : BufTy).Contents (Elt F) → (⟨S4, .i32⟩ : BufTy).Contents (Elt F)),
    StableHlo.ternary main_v38 main_v40 main_v35 main_v41 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v41 main_v42 (broadcastInDim S4x1 ![0] bcast_S4_S4x1_0 : (⟨S4, .i32⟩ : BufTy).Contents (Elt F) → (⟨S4x1, .i32⟩ : BufTy).Contents (Elt F)),
    StableHlo.nullary main_c_10 (constantI S_ 32 1#32),
    StableHlo.unary main_c_10 main_v43 (broadcastInDim S4 ![] bcast_S_S4 : (⟨S_, .i32⟩ : BufTy).Contents (Elt F) → (⟨S4, .i32⟩ : BufTy).Contents (Elt F)),
    StableHlo.ternary main_v36 main_v42 main_v43 main_v44 ((fun x i u => Host.scatter scatter_S16_S4x1_S4_n_0_0_1 IntOp.addi x i u) : (⟨S16, .i32⟩ : BufTy).Contents (Elt F) → (⟨S4x1, .i32⟩ : BufTy).Contents (Elt F) → (⟨S4, .i32⟩ : BufTy).Contents (Elt F) → (⟨S16, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v44 : StableHlo.TRef sig ⟨S16, .i32⟩) main_call2.call0.v0 main_call2.call0.v1 (fun x v => Host.reduceWindow IntOp.addi ![16] ![1] ![15] ![0] x v reduceWindows_S16_S16_w16s1p15_0 h_S_),
    StableHlo.nullary main_c_11 (constantI S_ 32 1#32),
    StableHlo.unary main_c_11 main_v46 (broadcastInDim S16 ![] bcast_S_S16 : (⟨S_, .i32⟩ : BufTy).Contents (Elt F) → (⟨S16, .i32⟩ : BufTy).Contents (Elt F)),
    StableHlo.binary main_v45 main_v46 main_v47 (subi : (⟨S16, .i32⟩ : BufTy).Contents (Elt F) → (⟨S16, .i32⟩ : BufTy).Contents (Elt F) → (⟨S16, .i32⟩ : BufTy).Contents (Elt F)) ]

/-- The last stretch: the take of the score's columns at the table (the index column, the range test, the gather, the fill), the product with the spherical components, and the sum over each destination node from zero. -/
abbrev opsC : List (HloOp τ sig (Elt F)) :=
  [ StableHlo.TRef.nullary main_call3.c (constantI S_ 32 0#32),
    StableHlo.TRef.unary main_call3.c main_call3.v0 (broadcastInDim S16 ![] bcast_S_S16),
    StableHlo.TRef.binary (.of main_v47 : StableHlo.TRef sig ⟨S16, .i32⟩) main_call3.v0 main_call3.v1 (cmpi .slt),
    StableHlo.TRef.nullary main_call3.c_0 (constantI S_ 32 4#32),
    StableHlo.TRef.unary main_call3.c_0 main_call3.v2 (broadcastInDim S16 ![] bcast_S_S16),
    StableHlo.TRef.binary (.of main_v47 : StableHlo.TRef sig ⟨S16, .i32⟩) main_call3.v2 main_call3.v3 addi,
    StableHlo.TRef.ternary main_call3.v1 main_call3.v3 (.of main_v47 : StableHlo.TRef sig ⟨S16, .i32⟩) main_call3.call0.v0 select,
    StableHlo.TRef.unary main_call3.call0.v0 main_call3.v5 (broadcastInDim S16x1 ![0] bcast_S16_S16x1_0),
    StableHlo.TRef.nullary main_call3.c_1 (constantI S1 32 3#32),
    StableHlo.TRef.nullary main_call3.c_2 (constantI S_ 32 0#32),
    StableHlo.TRef.unary main_call3.c_2 main_call3.v6 (broadcastInDim S16x1 ![] bcast_S_S16x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S16x1 ![0, 1] bcast_S1x1_S16x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16x1_S16_d1 h_S_),
    StableHlo.TRef.binary (.of main_v31 : StableHlo.TRef sig ⟨S1600000x4, .f32⟩) main_call3.v5 main_call3.v13 (fun x i => Host.gather gather_S1600000x4_S16x1_S1600000x16_0_1_n_n_1_1_16000001 x i),
    StableHlo.TRef.unary main_call3.v12 main_call3.v14 (broadcastInDim S1600000x16 ![1] bcast_S16_S1600000x16_1),
    StableHlo.TRef.nullary main_call3.cst (constant S_ .f32 0x7FC00000#32),
    StableHlo.TRef.unary main_call3.cst main_call3.v15 (broadcastInDim S1600000x16 ![] bcast_S_S1600000x16),
    StableHlo.TRef.ternary main_call3.v14 main_call3.v13 main_call3.v15 main_call3.v16 select,
    StableHlo.binary main_v48 main_arg1 main_v49 (mulf : (⟨S1600000x16, .f32⟩ : BufTy).Contents (Elt F) → (⟨S1600000x16, .f32⟩ : BufTy).Contents (Elt F) → (⟨S1600000x16, .f32⟩ : BufTy).Contents (Elt F)),
    StableHlo.nullary main_cst_12 (constant S_ .f32 0x00000000#32),
    StableHlo.unary main_cst_12 main_v50 (broadcastInDim S50000x16 ![] bcast_S_S50000x16 : (⟨S_, .f32⟩ : BufTy).Contents (Elt F) → (⟨S50000x16, .f32⟩ : BufTy).Contents (Elt F)),
    StableHlo.unary main_v9 main_v51 (broadcastInDim S1600000x1 ![0] bcast_S1600000_S1600000x1_0 : (⟨S1600000, .i32⟩ : BufTy).Contents (Elt F) → (⟨S1600000x1, .i32⟩ : BufTy).Contents (Elt F)),
    StableHlo.ternary main_v50 main_v51 main_v49 main_v52 ((fun x i u => Host.scatterAdd scatter_S50000x16_S1600000x1_S1600000x16_1_0_0_1 x i u) : (⟨S50000x16, .f32⟩ : BufTy).Contents (Elt F) → (⟨S1600000x1, .i32⟩ : BufTy).Contents (Elt F) → (⟨S1600000x16, .f32⟩ : BufTy).Contents (Elt F) → (⟨S50000x16, .f32⟩ : BufTy).Contents (Elt F)) ]

/-- @main's operations in order, the calls unfolded at their sites: the four stretches one after the other. -/
abbrev ops : List (HloOp τ sig (Elt F)) := opsA ++ (opsB1 ++ (opsB2 ++ opsC))

-- the chain of binds is re-associated once per statement: deeper than the default recursion bound
set_option maxRecDepth 8192 in
set_option maxHeartbeats 4000000 in
/-- @main is that straight line: its two windows one after the other, the functions' definitions unfolded at their
    calls and the records at their fields; both sides are one chain of steps once sequencing is re-associated. -/
theorem main_eq (c : Dev nD) : main (F := F) c = seq ops := by
  simp only [main, main_part0, main_part1, fn_roll_static.body, fn_cumsum.body, fn_cumsum_0.body, fn_cumsum_1.body,
    fn_cumsum_2.body, fn_take.body, fn_where.body, ops, opsA, opsB1, opsB2, opsC, List.cons_append, List.nil_append, seq,
    bind_assoc, pure_bind]

/-- The signature scopes no buffer. -/
theorem scopedRefs_eq : (Finset.univ.filter fun b : Ref sig .tc => b.isScoped) = ∅ := by decide
/-- The signature has no semaphore, so scopes none. -/
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., reshape_bufs_sub .., unary_bufs_sub .., binary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., binary_bufs_sub .., binary_bufs_sub .., nullary_bufs_sub .., binary_bufs_sub .., nullary_bufs_sub .., unary_bufs_sub .., binary_bufs_sub .., unary_bufs_sub .., binary_bufs_sub ..⟩
theorem opsB1_sub : (opsB1 : List (HloOp τ sig (Elt F))).Forall fun op => op.bufs ⊆ tcRefs τ sig :=
  ⟨unary_bufs_sub .., unary_bufs_sub .., binary_bufs_sub ..⟩
theorem opsB2_sub : (opsB2 : List (HloOp τ sig (Elt F))).Forall fun op => op.bufs ⊆ tcRefs τ sig :=
  ⟨nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., unary_bufs_sub .., ternary_bufs_sub ..⟩

/-- Every operation touches TensorCore references only. -/
theorem ops_sub : (ops : List (HloOp τ sig (Elt F))).Forall fun op => op.bufs ⊆ tcRefs τ sig :=
  List.forall_append.mpr ⟨opsA_sub, List.forall_append.mpr ⟨opsB1_sub, List.forall_append.mpr ⟨opsB2_sub, opsC_sub⟩⟩⟩

/-- From any memory with zero counters every weakly fair execution of @main terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold over two stretches in a row is the second's fold over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

end Line

/-! ## The fold read at the buffers the result depends on

Each stretch's outputs as the terms of the reference's result: the fold unrolled, each operation's result at its own
buffer its function's value and at any other buffer what was there. The gathers, scatters, reductions and windowed
reductions stay folded: the equations never look inside them. -/

section Read

attribute [local irreducible] Host.gather Host.scatter Host.scatterAdd Host.reduce Host.reduceAdd Host.reduceWindow

set_option maxRecDepth 8192 in
/-- After the first stretch the score buffer holds the per-edge, per-head score of the arguments. -/
theorem A_v31 (V : Valuation τ sig (Elt Ideal)) :
    after opsA V (main_v31 : DevRef τ sig)
      = Term.score (V (main_arg2 : DevRef τ sig)) (V (main_arg6 : DevRef τ sig)) (V (main_arg7 : DevRef τ sig))
          (V (main_arg3 : DevRef τ sig)) (V (main_arg4 : DevRef τ sig)) (V (main_arg5 : DevRef τ sig)) := by
  after_results_simp
  rfl

set_option maxRecDepth 8192 in
/-- After the first stretch the destination buffer holds row 1 of the edge table. -/
theorem A_v9 (V : Valuation τ sig (Elt Ideal)) :
    after opsA V (main_v9 : DevRef τ sig) = Term.dstRaw (V (main_arg4 : DevRef τ sig)) := by
  after_results_simp
  rfl

set_option maxRecDepth 8192 in
/-- After the first stretch the counts buffer holds [1, 3, 5, 7]. -/
theorem A_c (V : Valuation τ sig (Elt Ideal)) :
    after opsA V (main_c : DevRef τ sig) = Term.counts := by
  after_results_simp
  rfl

set_option maxRecDepth 8192 in
theorem A_arg1 (V : Valuation τ sig (Elt Ideal)) :
    after opsA V (main_arg1 : DevRef τ sig) = V (main_arg1 : DevRef τ sig) := by
  after_results_simp

set_option maxRecDepth 8192 in
/-- The counts rolled. -/
theorem B1_v32 (W : Valuation τ sig (Elt Ideal)) (hc : W (main_c : DevRef τ sig) = Term.counts) :
    after opsB1 W (main_v32 : DevRef τ sig) = Term.rolled := by
  after_results
  rw [hc]
  rfl

set_option maxRecDepth 8192 in
theorem B1_v31 (V : Valuation τ sig (Elt Ideal)) :
    after opsB1 V (main_v31 : DevRef τ sig) = V (main_v31 : DevRef τ sig) := by
  after_results_simp

set_option maxRecDepth 8192 in
theorem B1_v9 (V : Valuation τ sig (Elt Ideal)) :
    after opsB1 V (main_v9 : DevRef τ sig) = V (main_v9 : DevRef τ sig) := by
  after_results_simp

set_option maxRecDepth 8192 in
theorem B1_arg1 (V : Valuation τ sig (Elt Ideal)) :
    after opsB1 V (main_arg1 : DevRef τ sig) = V (main_arg1 : DevRef τ sig) := by
  after_results_simp

set_option maxRecDepth 8192 in
/-- From the rolled counts, the column-to-head table. -/
theorem B2_v47 (W : Valuation τ sig (Elt Ideal)) (hr : W (main_v32 : DevRef τ sig) = Term.rolled) :
    after opsB2 W (main_v47 : DevRef τ sig) = Term.repIdx := by
  after_results_simp
  rw [hr]
  rfl

set_option maxRecDepth 8192 in
theorem B2_v31 (V : Valuation τ sig (Elt Ideal)) :
    after opsB2 V (main_v31 : DevRef τ sig) = V (main_v31 : DevRef τ sig) := by
  after_results_simp

set_option maxRecDepth 8192 in
theorem B2_v9 (V : Valuation τ sig (Elt Ideal)) :
    after opsB2 V (main_v9 : DevRef τ sig) = V (main_v9 : DevRef τ sig) := by
  after_results_simp

set_option maxRecDepth 8192 in
theorem B2_arg1 (V : Valuation τ sig (Elt Ideal)) :
    after opsB2 V (main_arg1 : DevRef τ sig) = V (main_arg1 : DevRef τ sig) := by
  after_results_simp

set_option maxRecDepth 8192 in
/-- The last stretch: the take at the table, times the spherical components, summed over each destination. -/
theorem C_v52 (X : Valuation τ sig (Elt Ideal)) :
    after opsC X (main_v52 : DevRef τ sig)
      = Term.scatterTail (X (main_v9 : DevRef τ sig))
          (mulf (Term.take (X (main_v31 : DevRef τ sig)) (X (main_v47 : DevRef τ sig))) (X (main_arg1 : DevRef τ sig))) := by
  after_results_simp
  rfl

/-- The whole line at the result buffer: the reference's result term of the arguments. -/
theorem result_eq (V : Valuation τ sig (Elt Ideal)) :
    after ops V (main_v52 : DevRef τ sig)
      = Term.result (V (main_arg2 : DevRef τ sig)) (V (main_arg6 : DevRef τ sig)) (V (main_arg7 : DevRef τ sig))
          (V (main_arg3 : DevRef τ sig)) (V (main_arg4 : DevRef τ sig)) (V (main_arg5 : DevRef τ sig))
          (V (main_arg1 : DevRef τ sig)) := by
  show after (opsA ++ (opsB1 ++ (opsB2 ++ opsC))) V _ = _
  rw [after_append', after_append', after_append', C_v52, B2_v9, B2_v31, B2_arg1,
    B2_v47 _ (B1_v32 _ (A_c V)), B1_v9, B1_v31, B1_arg1, A_v9, A_v31, A_arg1]
  rfl

set_option maxRecDepth 8192 in
theorem arg0_eq (V : Valuation τ sig (Elt Ideal)) :
    after ops V (main_arg0 : DevRef τ sig) = V (main_arg0 : DevRef τ sig) := by
  simp only [ops, opsA, opsB1, opsB2, opsC, List.cons_append, List.nil_append]
  after_results_simp

set_option maxRecDepth 8192 in
theorem arg1_eq (V : Valuation τ sig (Elt Ideal)) :
    after ops V (main_arg1 : DevRef τ sig) = V (main_arg1 : DevRef τ sig) := by
  simp only [ops, opsA, opsB1, opsB2, opsC, List.cons_append, List.nil_append]
  after_results_simp

set_option maxRecDepth 8192 in
theorem arg2_eq (V : Valuation τ sig (Elt Ideal)) :
    after ops V (main_arg2 : DevRef τ sig) = V (main_arg2 : DevRef τ sig) := by
  simp only [ops, opsA, opsB1, opsB2, opsC, List.cons_append, List.nil_append]
  after_results_simp

set_option maxRecDepth 8192 in
theorem arg3_eq (V : Valuation τ sig (Elt Ideal)) :
    after ops V (main_arg3 : DevRef τ sig) = V (main_arg3 : DevRef τ sig) := by
  simp only [ops, opsA, opsB1, opsB2, opsC, List.cons_append, List.nil_append]
  after_results_simp

set_option maxRecDepth 8192 in
theorem arg4_eq (V : Valuation τ sig (Elt Ideal)) :
    after ops V (main_arg4 : DevRef τ sig) = V (main_arg4 : DevRef τ sig) := by
  simp only [ops, opsA, opsB1, opsB2, opsC, List.cons_append, List.nil_append]
  after_results_simp

set_option maxRecDepth 8192 in
theorem arg5_eq (V : Valuation τ sig (Elt Ideal)) :
    after ops V (main_arg5 : DevRef τ sig) = V (main_arg5 : DevRef τ sig) := by
  simp only [ops, opsA, opsB1, opsB2, opsC, List.cons_append, List.nil_append]
  after_results_simp

set_option maxRecDepth 8192 in
theorem arg6_eq (V : Valuation τ sig (Elt Ideal)) :
    after ops V (main_arg6 : DevRef τ sig) = V (main_arg6 : DevRef τ sig) := by
  simp only [ops, opsA, opsB1, opsB2, opsC, List.cons_append, List.nil_append]
  after_results_simp

set_option maxRecDepth 8192 in
theorem arg7_eq (V : Valuation τ sig (Elt Ideal)) :
    after ops V (main_arg7 : DevRef τ sig) = V (main_arg7 : DevRef τ sig) := by
  simp only [ops, opsA, opsB1, opsB2, opsC, List.cons_append, List.nil_append]
  after_results_simp

end Read

/-- Every weakly fair execution of the reference terminates with the result buffer at the reference's result term of
    the launch contents of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v52)
        = Term.result (m ((c.tc : Thread nD τ).loc main_arg2)) (m ((c.tc : Thread nD τ).loc main_arg6)) (m ((c.tc : Thread nD τ).loc main_arg7))
            (m ((c.tc : Thread nD τ).loc main_arg3)) (m ((c.tc : Thread nD τ).loc main_arg4)) (m ((c.tc : Thread nD τ).loc main_arg5))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c => ⟨(h c main_v52).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_main m ρ)

end Cert.ReferenceIdeal.Run

end
-- ==== Proof.RepeatIndex.lean ====
/-
  The column-to-head table the reference computes from the repeat counts [1, 3, 5, 7]: column c's entry is the head of
  c, so every entry lies in [0, 3] and the take never uses its fill value.
-/
import proofs.«423898_j89910845374840_1_alg».proof.Proof.ReferenceTerm

noncomputable section

open Idealize.ShloMosaic Idealize.ShloMosaic.ValueIdx
open scoped BigOperators

namespace Cert.ReferenceIdeal.RepeatIndex

open Cert.ReferenceIdeal Cert.HeadScore

/-- All sixteen entries of the table at once. The table is a closed term over the literal counts [1, 3, 5, 7]: the roll
    gives [7, 1, 3, 5], zeroing entry 0 gives [0, 1, 3, 5], the running sums give the first columns [0, 1, 4, 9], a one
    added at each of these among sixteen zeros gives the marks, and the running sums of the marks less one give
    [0, 1, 1, 1, 2, 2, 2, 2, 2, 3, 3, 3, 3, 3, 3, 3]. Each of the sixteen equations of 32-bit words is decided by
    evaluating both sides. -/
private theorem repIdx_table : ∀ c : Fin 16, Term.repIdx (ix1 c) = BitVec.ofNat 32 (headOf c).val := by
  decide +kernel

/-- No entry of the table is negative, so the fix-up adds nothing and the column holds the same sixteen words. -/
private theorem takeCol_table :
    ∀ c : Fin 16, Term.takeCol Term.repIdx (ix2 c (0 : Fin 1)) = BitVec.ofNat 32 (headOf c).val := by
  decide +kernel

/-- Every entry is at least 0 and at most 3, so the conjunction over the one-element axis, from true, is true. -/
private theorem takeInRange_table : ∀ c : Fin 16, Term.takeInRange Term.repIdx (ix1 c) = 1#1 := by
  decide +kernel

/-- The computed table: the head of each column. -/
theorem repIdx_apply (c : Fin 16) : Term.repIdx (ix1 c) = BitVec.ofNat 32 (headOf c).val :=
  repIdx_table c

/-- The take's index column at the table: still the head of each column. -/
theorem takeCol_apply (c : Fin 16) : Term.takeCol Term.repIdx (ix2 c (0 : Fin 1)) = BitVec.ofNat 32 (headOf c).val :=
  takeCol_table c

/-- Every index is in range. -/
theorem takeInRange_apply (c : Fin 16) : Term.takeInRange Term.repIdx (ix1 c) = 1#1 :=
  takeInRange_table c

end Cert.ReferenceIdeal.RepeatIndex

end
-- ==== Proof.LibGatherRows3.lean ====
/-
  A gather of whole SLABS of a rank-3 table by an [n × 1] table of start indices (what `table[idx]` of a rank-3
  table prints as), read at one element: slab p, row a, column q of the result is the table at slab p's start index,
  read as a signed integer and brought inside the table, at row a and column q.
-/
import Idealize.ShloMosaic.PureOps.Ideal
import Idealize.ShloMosaic.Lib.ValueIdx

noncomputable section

open Idealize.ShloMosaic Idealize.ShloMosaic.ValueIdx

namespace Cert.LibGatherRows3

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The entry of a two-element list at position k is the first element when k = 0 and the second otherwise. -/
private theorem getElem_of_eq_pair {β : Type} (l : List β) (b0 b1 : β) (hl : l = [b0, b1]) (k : Nat)
    (hk : k < l.length) : l[k] = if k = 0 then b0 else b1 := by
  subst hl
  match k, hk with
  | 0, _ => rfl
  | 1, _ => rfl
  | k + 2, hk => exact absurd hk (by simp)

/-- The result's one batch axis is axis 0: axes 1 and 2 are the offset axes. -/
private theorem batchDims_rows3 {N A C n : Nat} (d : GatherDims ⟨3, ![N, A, C]⟩ ⟨2, ![n, 1]⟩ ⟨3, ![n, A, C]⟩)
    (hoff : d.offsetDims = [1, 2]) : d.batchDims = [0] := by
  show Shape.kept _ d.offsetDims = [0]
  rw [hoff]
  show (List.finRange 3).filter (fun a : Fin 3 => a ∉ ([1, 2] : List (Fin 3))) = [0]
  decide

/-- The operand's axes that are neither collapsed nor batching are axes 1 and 2, in that order. -/
private theorem sKept_rows3 {N A C n : Nat} (d : GatherDims ⟨3, ![N, A, C]⟩ ⟨2, ![n, 1]⟩ ⟨3, ![n, A, C]⟩)
    (hcoll : d.collapsedSliceDims = [0]) (hob : d.operandBatchingDims = []) : d.sKept = [1, 2] := by
  show Shape.kept _ (d.collapsedSliceDims ++ d.operandBatchingDims) = [1, 2]
  rw [hcoll, hob, List.append_nil]
  show (List.finRange 3).filter (fun a : Fin 3 => a ∉ ([0] : List (Fin 3))) = ([1, 2] : List (Fin 3))
  decide

/-- The start-index table is read at the result slab's row, column 0. -/
private theorem siIdx_rows3 {N A C n : Nat} (d : GatherDims ⟨3, ![N, A, C]⟩ ⟨2, ![n, 1]⟩ ⟨3, ![n, A, C]⟩)
    (hoff : d.offsetDims = [1, 2]) (hsim : d.startIndexMap = [0]) (hivd : d.indexVectorDim = 1)
    (j : (⟨3, ![n, A, C]⟩ : Shape).Idx) (c : Fin d.startIndexMap.length) :
    d.siIdx j c = ix2 (j 0) (0 : Fin 1) := by
  funext b
  match b with
  | ⟨0, _⟩ =>
    unfold GatherDims.siIdx
    rw [dif_neg (by rw [hivd]; simp)]
    unfold GatherDims.siCoord
    apply Fin.ext
    simp only [Fin.val_cast]
    have e : ∀ (k : Nat) (hk : k < d.batchDims.length), d.batchDims[k] = 0 :=
      fun k hk => getElem_of_eq_singleton _ _ (batchDims_rows3 d hoff) k hk
    rw [e]
  | ⟨1, _⟩ =>
    unfold GatherDims.siIdx
    rw [dif_pos (by rw [hivd])]
    apply Fin.ext
    have hc : c.val < d.startIndexMap.length := c.isLt
    have hl : d.startIndexMap.length = 1 := by rw [hsim]; rfl
    show c.val = 0
    omega

/-- On the slab axis the slice starts at the start index, read signed and brought inside the table. -/
private theorem start_rows3_0 {N A C n w : Nat} (d : GatherDims ⟨3, ![N, A, C]⟩ ⟨2, ![n, 1]⟩ ⟨3, ![n, A, C]⟩)
    (hoff : d.offsetDims = [1, 2]) (hcoll : d.collapsedSliceDims = [0]) (hsim : d.startIndexMap = [0])
    (hivd : d.indexVectorDim = 1) (idx : IVec ⟨2, ![n, 1]⟩ w) (j : (⟨3, ![n, A, C]⟩ : Shape).Idx) :
    d.start j idx 0 = min (idx (ix2 (j 0) (0 : Fin 1))).toInt.toNat (N - 1) := by
  have hm : (0 : Fin 3) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, siIdx_rows3 d hoff hsim hivd, hsl]
  rfl

/-- On the row and column axes, which no start index addresses, the slice starts at 0. -/
private theorem start_rows3_ne {N A C n w : Nat} (d : GatherDims ⟨3, ![N, A, C]⟩ ⟨2, ![n, 1]⟩ ⟨3, ![n, A, C]⟩)
    (hsim : d.startIndexMap = [0]) (idx : IVec ⟨2, ![n, 1]⟩ w) (j : (⟨3, ![n, A, C]⟩ : Shape).Idx)
    (b : Fin 3) (hb : b ≠ 0) : d.start j idx b = 0 := by
  unfold GatherDims.start
  rw [dif_neg]
  rw [hsim]
  exact fun h => hb (List.mem_singleton.1 h)

/-- The collapsed slab axis has no offset coordinate. -/
private theorem offCoord_rows3_0 {N A C n : Nat} (d : GatherDims ⟨3, ![N, A, C]⟩ ⟨2, ![n, 1]⟩ ⟨3, ![n, A, C]⟩)
    (hcoll : d.collapsedSliceDims = [0]) (j : (⟨3, ![n, A, C]⟩ : Shape).Idx) :
    d.offCoord j 0 = 0 := by
  apply d.offCoord_eq_zero
  intro h
  exact ((d.mem_sKept 0).1 h).1 (by rw [hcoll]; exact List.mem_singleton.mpr rfl)

/-- The row axis's offset coordinate is the result's row. -/
private theorem offCoord_rows3_1 {N A C n : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (j : (⟨3, ![n, A, C]⟩ : Shape).Idx) :
    d.offCoord j 1 = (j 1).val := by
  have hk : (1 : Fin 3) ∈ d.sKept := by
    rw [sKept_rows3 d hcoll hob]
    show (1 : Fin 3) ∈ ([1, 2] : List (Fin 3))
    decide
  have hp : d.sKept.idxOf (1 : Fin 3) = 0 := by
    rw [sKept_rows3 d hcoll hob]
    show List.idxOf (1 : Fin 3) ([1, 2] : List (Fin 3)) = 0
    decide
  unfold GatherDims.offCoord
  rw [dif_pos hk, getElem_of_eq_pair _ _ _ hoff, if_pos hp]

/-- The column axis's offset coordinate is the result's column. -/
private theorem offCoord_rows3_2 {N A C n : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (j : (⟨3, ![n, A, C]⟩ : Shape).Idx) :
    d.offCoord j 2 = (j 2).val := by
  have hk : (2 : Fin 3) ∈ d.sKept := by
    rw [sKept_rows3 d hcoll hob]
    show (2 : Fin 3) ∈ ([1, 2] : List (Fin 3))
    decide
  have hp : ¬ d.sKept.idxOf (2 : Fin 3) = 0 := by
    rw [sKept_rows3 d hcoll hob]
    show ¬ List.idxOf (2 : Fin 3) ([1, 2] : List (Fin 3)) = 0
    decide
  unfold GatherDims.offCoord
  rw [dif_pos hk, getElem_of_eq_pair _ _ _ hoff, if_neg hp]

/-- The slab gather read at (p, a, q). -/
theorem gather_rows3 {α : Type} {N A C n w : Nat} (d : GatherDims ⟨3, ![N, A, C]⟩ ⟨2, ![n, 1]⟩ ⟨3, ![n, A, C]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (hss : d.sliceSizes = ![1, A, C])
    (x : (⟨3, ![N, A, C]⟩ : Shape).Idx → α) (idx : IVec ⟨2, ![n, 1]⟩ w) (p : Fin n) (a : Fin A) (q : Fin C) (hN : 0 < N) :
    Host.gather d x idx (ix3 p a q)
      = x (ix3 (⟨min (idx (ix2 p (0 : Fin 1))).toInt.toNat (N - 1), by omega⟩ : Fin N) a q) := by
  unfold Host.gather
  congr 1
  funext b
  have hb : ∀ b : Fin 3, b ∉ d.operandBatchingDims := fun b => by rw [hob]; exact List.not_mem_nil
  match b with
  | ⟨0, _⟩ =>
    apply Fin.ext
    show d.start (ix3 p a q) idx 0 + d.batchCoord (ix3 p a q) 0 + d.offCoord (ix3 p a q) 0 = _
    rw [start_rows3_0 d hoff hcoll hsim hivd, d.batchCoord_eq_zero _ _ (hb 0), offCoord_rows3_0 d hcoll]
    rfl
  | ⟨1, _⟩ =>
    apply Fin.ext
    show d.start (ix3 p a q) idx 1 + d.batchCoord (ix3 p a q) 1 + d.offCoord (ix3 p a q) 1 = _
    rw [start_rows3_ne d hsim idx _ 1 (by decide), d.batchCoord_eq_zero _ _ (hb 1), offCoord_rows3_1 d hoff hcoll hob]
    show 0 + 0 + a.val = a.val
    omega
  | ⟨2, _⟩ =>
    apply Fin.ext
    show d.start (ix3 p a q) idx 2 + d.batchCoord (ix3 p a q) 2 + d.offCoord (ix3 p a q) 2 = _
    rw [start_rows3_ne d hsim idx _ 2 (by decide), d.batchCoord_eq_zero _ _ (hb 2), offCoord_rows3_2 d hoff hcoll hob]
    show 0 + 0 + q.val = q.val
    omega

end Cert.LibGatherRows3

end
-- ==== Proof.LibGatherCols2.lean ====
/-
  A read of a column gather of a rank-2 table at one element of its result. The start indices are an [n × 1] table of
  column numbers and whole columns are taken (what a take of a rank-2 table along its second axis prints as): row e,
  column c of the result is the table at row e and at the column that c's start index names, the word read as a signed
  integer and brought inside the table's columns.
-/
import Idealize.ShloMosaic.PureOps.Ideal
import Idealize.ShloMosaic.Lib.ValueIdx

noncomputable section

open Idealize.ShloMosaic Idealize.ShloMosaic.ValueIdx

namespace Cert.LibGatherCols2

/-- Every entry of a one-element list is that element. -/
private theorem getElem_of_eq_singleton {β : Type} (l : List β) (b : β) (hl : l = [b]) (k : Nat) (hk : k < l.length) :
    l[k] = b := by
  subst hl
  have h0 : k = 0 := by simpa using hk
  subst h0
  rfl

/-- The result's one batch axis is axis 1: axis 0 is the offset axis. -/
private theorem batchDims_cols {s si : Shape} {N n : Nat} (d : GatherDims s si ⟨2, ![N, n]⟩)
    (hoff : d.offsetDims = [0]) : d.batchDims = [1] := by
  show Shape.kept _ d.offsetDims = [1]
  rw [hoff]
  show (List.finRange 2).filter (fun a : Fin 2 => a ∉ ([0] : List (Fin 2))) = [1]
  decide

/-- The operand's one axis that is neither collapsed nor batching is axis 0. -/
private theorem sKept_cols {si t : Shape} {N C : Nat} (d : GatherDims ⟨2, ![N, C]⟩ si t)
    (hcol : d.collapsedSliceDims = [1]) (hob : d.operandBatchingDims = []) : d.sKept = [0] := by
  show Shape.kept _ (d.collapsedSliceDims ++ d.operandBatchingDims) = [0]
  rw [hcol, hob, List.append_nil]
  show (List.finRange 2).filter (fun a : Fin 2 => a ∉ ([1] : List (Fin 2))) = ([0] : List (Fin 2))
  decide

/-- The start-index table is read at the result's column, column 0 of the table. -/
private theorem siIdx_cols {s : Shape} {N n : Nat} (d : GatherDims s ⟨2, ![n, 1]⟩ ⟨2, ![N, n]⟩)
    (hoff : d.offsetDims = [0]) (hiv : d.indexVectorDim = 1) (j : (⟨2, ![N, n]⟩ : Shape).Idx)
    (c : Fin d.startIndexMap.length) :
    d.siIdx j c = ix2 (j 1) (0 : Fin 1) := by
  funext b
  match b with
  | ⟨0, _⟩ =>
    unfold GatherDims.siIdx
    rw [dif_neg (by rw [hiv]; simp)]
    unfold GatherDims.siCoord
    apply Fin.ext
    simp only [Fin.val_cast]
    have e : ∀ (k : Nat) (hk : k < d.batchDims.length), d.batchDims[k] = 1 :=
      fun k hk => getElem_of_eq_singleton _ _ (batchDims_cols d hoff) k hk
    rw [e]
  | ⟨1, _⟩ =>
    unfold GatherDims.siIdx
    rw [dif_pos (by rw [hiv])]
    apply Fin.ext
    have hc : c.val < d.startIndexMap.length := c.isLt
    have hl := d.sim_length
    rw [hiv] at hl
    show c.val = 0
    have : d.startIndexMap.length = 1 := hl
    omega

/-- The column gather read at (e, c): the table at row e and at column c's start index, read signed and brought into
    [0, C - 1]. -/
theorem gather_cols2 {α : Type} {N C n w : Nat} (d : GatherDims ⟨2, ![N, C]⟩ ⟨2, ![n, 1]⟩ ⟨2, ![N, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hss : d.sliceSizes = ![N, 1])
    (x : (⟨2, ![N, C]⟩ : Shape).Idx → α) (idx : IVec ⟨2, ![n, 1]⟩ w) (e : Fin N) (c : Fin n) (hC : 0 < C) :
    Host.gather d x idx (ix2 e c)
      = x (ix2 e (⟨min (idx (ix2 c (0 : Fin 1))).toInt.toNat (C - 1), by omega⟩ : Fin C)) := by
  unfold Host.gather
  congr 1
  funext b
  have hb : ∀ b : Fin 2, b ∉ d.operandBatchingDims := fun b => by rw [hob]; exact List.not_mem_nil
  match b with
  | ⟨0, _⟩ =>
    apply Fin.ext
    show d.start (ix2 e c) idx 0 + d.batchCoord (ix2 e c) 0 + d.offCoord (ix2 e c) 0 = _
    have h0 : d.start (ix2 e c) idx 0 = 0 := by
      unfold GatherDims.start
      rw [dif_neg]
      rw [hmap]
      show (0 : Fin 2) ∉ ([1] : List (Fin 2))
      decide
    have hk : (0 : Fin 2) ∈ d.sKept := by
      rw [sKept_cols d hcol hob]
      exact List.mem_singleton.mpr rfl
    have ho : d.offCoord (ix2 e c) 0 = e.val := by
      unfold GatherDims.offCoord
      rw [dif_pos hk, getElem_of_eq_singleton _ _ hoff]
      rfl
    rw [h0, d.batchCoord_eq_zero _ _ (hb 0), ho]
    show 0 + 0 + e.val = e.val
    omega
  | ⟨1, _⟩ =>
    apply Fin.ext
    show d.start (ix2 e c) idx 1 + d.batchCoord (ix2 e c) 1 + d.offCoord (ix2 e c) 1 = _
    have hm : (1 : Fin 2) ∈ d.startIndexMap := by rw [hmap]; exact List.mem_singleton.mpr rfl
    have hsl : d.sliceSizes 1 = 1 := d.slice_collapsed 1 (by rw [hcol]; exact List.mem_singleton.mpr rfl)
    have h1 : d.start (ix2 e c) idx 1 = min (idx (ix2 c (0 : Fin 1))).toInt.toNat (C - 1) := by
      unfold GatherDims.start
      rw [dif_pos hm, siIdx_cols d hoff hiv, hsl]
      rfl
    have ho : d.offCoord (ix2 e c) 1 = 0 := by
      apply d.offCoord_eq_zero
      intro h
      exact ((d.mem_sKept 1).1 h).1 (by rw [hcol]; exact List.mem_singleton.mpr rfl)
    rw [h1, d.batchCoord_eq_zero _ _ (hb 1), ho]
    rfl

end Cert.LibGatherCols2

end
-- ==== Proof.LibLayoutRead.lean ====
/-
  A row-major reshape read at an index: the reshaped array at an index holds the operand's entry at the index with
  the same row-major position.  Spelled out for the four re-layouts between one, two and three axes that a flat
  per-edge array, a four-per-edge array and a per-core lane row go through: the position of (i, j, k) in an
  [a, b, c] array is i * (b * c) + j * c + k, the position of (e, p) in an [n, q] array is e * q + p, and a unit
  middle axis contributes nothing.  Generic in the element type, in the extents and in the proof of the shape relation.
-/
import Idealize.ShloMosaic.Lib.ValueIdx
import Idealize.ShloMosaic.Lib.Pipeline.Value

namespace Cert.LibLayoutRead

open Idealize.ShloMosaic Idealize.ShloMosaic.ValueIdx

/-! ## Element counts and positions -/

/-- A one-axis array of extent n has n entries. -/
theorem numel_one (n : Nat) : (⟨1, ![n]⟩ : Shape).numel = n := by
  simp [Shape.numel]

/-- An [n, q] array has n * q entries. -/
theorem numel_two (n q : Nat) : (⟨2, ![n, q]⟩ : Shape).numel = n * q := by
  simp [Shape.numel, Fin.prod_univ_succ]

/-- An [a, b, c] array has a * b * c entries. -/
theorem numel_three (a b c : Nat) : (⟨3, ![a, b, c]⟩ : Shape).numel = a * b * c := by
  simp [Shape.numel, Fin.prod_univ_succ, Nat.mul_assoc]

/-- The position of (i, k) in an [a, q] array is below a * q. -/
theorem pos2_lt {a q : Nat} (i : Fin a) (k : Fin q) : i.val * q + k.val < a * q :=
  calc i.val * q + k.val < i.val * q + q := Nat.add_lt_add_left k.isLt _
    _ = (i.val + 1) * q := (Nat.succ_mul _ _).symm
    _ ≤ a * q := Nat.mul_le_mul_right _ i.isLt

/-- The position of (i, j, k) in an [a, b, c] array is below a * b * c. -/
theorem pos3_lt {a b c : Nat} (i : Fin a) (j : Fin b) (k : Fin c) :
    i.val * (b * c) + j.val * c + k.val < a * b * c := by
  have h1 : j.val * c + k.val < b * c := pos2_lt j k
  calc i.val * (b * c) + j.val * c + k.val = i.val * (b * c) + (j.val * c + k.val) := Nat.add_assoc _ _ _
    _ < i.val * (b * c) + b * c := Nat.add_lt_add_left h1 _
    _ = (i.val + 1) * (b * c) := (Nat.succ_mul _ _).symm
    _ ≤ a * (b * c) := Nat.mul_le_mul_right _ i.isLt
    _ = a * b * c := (Nat.mul_assoc _ _ _).symm

/-- The two spellings of the position of (i, j, k) agree. -/
theorem pos3_eq (b c i j k : Nat) : i * (b * c) + j * c + k = (i * b + j) * c + k := by
  rw [Nat.add_mul, Nat.mul_assoc]

/-- The bound of a flat position in an array with as many entries as an [a, b, c] one. -/
theorem pos3_lt_of_casts {n a b c : Nat} (h : (⟨1, ![n]⟩ : Shape).ShapeCasts ⟨3, ![a, b, c]⟩)
    (i : Fin a) (j : Fin b) (k : Fin c) : i.val * (b * c) + j.val * c + k.val < n := by
  have h' : a * b * c = n := by
    have := h
    unfold Shape.ShapeCasts at this
    rwa [numel_three, numel_one] at this
  exact h' ▸ pos3_lt i j k

/-- The bound of a flat position in an array with as many entries as an [a, q] one. -/
theorem pos2_lt_of_casts {n a q : Nat} (h : (⟨1, ![n]⟩ : Shape).ShapeCasts ⟨2, ![a, q]⟩)
    (i : Fin a) (k : Fin q) : i.val * q + k.val < n := by
  have h' : a * q = n := by
    have := h
    unfold Shape.ShapeCasts at this
    rwa [numel_two, numel_one] at this
  exact h' ▸ pos2_lt i k

/-- A position of an [a, b, c] array, in an [n, q] array with as many entries: its row is below n. -/
theorem row_lt_of_casts {n q a b c : Nat} (h : (⟨2, ![n, q]⟩ : Shape).ShapeCasts ⟨3, ![a, b, c]⟩)
    (i : Fin a) (j : Fin b) (k : Fin c) : (i.val * (b * c) + j.val * c + k.val) / q < n := by
  have h' : a * b * c = n * q := by
    have := h
    unfold Shape.ShapeCasts at this
    rwa [numel_three, numel_two] at this
  have hP : i.val * (b * c) + j.val * c + k.val < n * q := h' ▸ pos3_lt i j k
  exact Nat.div_lt_of_lt_mul (by rw [Nat.mul_comm q n]; exact hP)

/-- … and its column is below q. -/
theorem col_lt_of_casts {n q a b c : Nat} (h : (⟨2, ![n, q]⟩ : Shape).ShapeCasts ⟨3, ![a, b, c]⟩)
    (i : Fin a) (j : Fin b) (k : Fin c) : (i.val * (b * c) + j.val * c + k.val) % q < q := by
  have h' : a * b * c = n * q := by
    have := h
    unfold Shape.ShapeCasts at this
    rwa [numel_three, numel_two] at this
  have hP : i.val * (b * c) + j.val * c + k.val < n * q := h' ▸ pos3_lt i j k
  have hq : 0 < q := by
    rcases Nat.eq_zero_or_pos q with h0 | h0
    · rw [h0, Nat.mul_zero] at hP; exact absurd hP (Nat.not_lt_zero _)
    · exact h0
  exact Nat.mod_lt _ hq

/-! ## The four re-layouts read at an index -/

variable {α : Type}

/-- A flat array viewed as [a, b, c]: entry (i, j, k) is the flat entry at position i * (b * c) + j * c + k. -/
theorem cast_1_3 {n a b c : Nat} (x : (⟨1, ![n]⟩ : Shape).Idx → α)
    (h : (⟨1, ![n]⟩ : Shape).ShapeCasts ⟨3, ![a, b, c]⟩) (i : Fin a) (j : Fin b) (k : Fin c) :
    shapeCast ⟨3, ![a, b, c]⟩ x h (ix3 i j k)
      = x (ix1 ⟨i.val * (b * c) + j.val * c + k.val, pos3_lt_of_casts h i j k⟩) := by
  refine shapeCast_apply x h _ _ ?_
  rw [Shape.rowMajor_val_one, Shape.rowMajor_val_three]
  exact pos3_eq b c i.val j.val k.val

/-- An [n, q] array viewed as [a, b, c]: entry (i, j, k), at position P = i * (b * c) + j * c + k, is the entry in
    row P / q and column P % q. -/
theorem cast_2_3 {n q a b c : Nat} (x : (⟨2, ![n, q]⟩ : Shape).Idx → α)
    (h : (⟨2, ![n, q]⟩ : Shape).ShapeCasts ⟨3, ![a, b, c]⟩) (i : Fin a) (j : Fin b) (k : Fin c) :
    shapeCast ⟨3, ![a, b, c]⟩ x h (ix3 i j k)
      = x (ix2 ⟨(i.val * (b * c) + j.val * c + k.val) / q, row_lt_of_casts h i j k⟩
            ⟨(i.val * (b * c) + j.val * c + k.val) % q, col_lt_of_casts h i j k⟩) := by
  refine shapeCast_apply x h _ _ ?_
  rw [Shape.rowMajor_val_two, Shape.rowMajor_val_three]
  show (i.val * (b * c) + j.val * c + k.val) / q * q + (i.val * (b * c) + j.val * c + k.val) % q
    = (i.val * b + j.val) * c + k.val
  rw [Nat.div_add_mod']
  exact pos3_eq b c i.val j.val k.val

/-- An [a, 1, c] array viewed as [a, c]: entry (i, k) is entry (i, 0, k). -/
theorem cast_3_2 {a c : Nat} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i 0 k) := by
  refine shapeCast_apply x h _ _ ?_
  rw [Shape.rowMajor_val_two, Shape.rowMajor_val_three]
  show (i.val * 1 + 0) * c + k.val = i.val * c + k.val
  rw [Nat.mul_one, Nat.add_zero]

/-- A flat array viewed as [a, q]: entry (i, k) is the flat entry at position i * q + k. -/
theorem cast_1_2 {n a q : Nat} (x : (⟨1, ![n]⟩ : Shape).Idx → α)
    (h : (⟨1, ![n]⟩ : Shape).ShapeCasts ⟨2, ![a, q]⟩) (i : Fin a) (k : Fin q) :
    shapeCast ⟨2, ![a, q]⟩ x h (ix2 i k) = x (ix1 ⟨i.val * q + k.val, pos2_lt_of_casts h i k⟩) := by
  refine shapeCast_apply x h _ _ ?_
  rw [Shape.rowMajor_val_one, Shape.rowMajor_val_two]
  rfl

end Cert.LibLayoutRead
-- ==== Proof.ReferenceScore.lean ====
/-
  The reference's edge contributions are the specification's: the gathered head slabs are the node projections at the
  destination and source nodes, the head's lanes are summed, the quotient by the divisor is the product with its
  reciprocal, and column c takes the score of its head.
-/
import proofs.«423898_j89910845374840_1_alg».proof.Proof.ReferenceTerm
import proofs.«423898_j89910845374840_1_alg».proof.Proof.RepeatIndex
import proofs.«423898_j89910845374840_1_alg».proof.Proof.LibGatherRows3
import proofs.«423898_j89910845374840_1_alg».proof.Proof.LibGatherCols2
import proofs.«423898_j89910845374840_1_alg».proof.Proof.LibLayoutRead
import proofs.«423898_j89910845374840_1_alg».proof.Proof.LibPlainMatmul
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.ReferenceIdeal.Score

open Cert.ReferenceIdeal Cert.HeadScore Cert.LibGatherCols2

/-- The divisor's pattern is the real 11863283 / 2097152. -/
private theorem divisor_eq : Ideal.ofBits .f32 0x40B504F3#32 = ((11863283 / 2097152 : ℝ) : EReal) := by
  simp [Ideal.ofBits, Ideal.ieee, -EReal.coe_mul]; norm_num

/-- Dividing by the divisor is multiplying by its reciprocal, on every extended real. -/
private theorem div_divisor (a : EReal) : Ideal.div a (Ideal.ofBits .f32 0x40B504F3#32) = a * invDiv := by
  rw [divisor_eq, Ideal.div_coe (by norm_num)]
  unfold invDiv
  congr 2
  norm_num

/-- For a head h, the word h read signed and brought into [0, 3] is h. -/
private theorem clamp_head (h : Fin 4) : min (BitVec.ofNat 32 h.val).toInt.toNat (4 - 1) = h.val := by
  revert h; decide

/-- The mask of the take, read at (e, c), is the range bit of column c. -/
private theorem mask_apply (m : IVec S16 1) (e : Fin 1600000) (c : Fin 16) :
    broadcastInDim S1600000x16 ![1] Facts₀.bcast_S16_S1600000x16_1 m (ix2 e c) = m (ix1 c) :=
  broadcastInDim_apply _ _ _ _ _ (fun a => match a with | ⟨0, _⟩ => rfl)

/-- The take's gather read at (e, c). -/
private theorem takeGather_apply (a : FVec Ideal S1600000x4 .f32) (idx : IVec S16x1 32) (e : Fin 1600000) (c : Fin 16) :
    Host.gather gather_S1600000x4_S16x1_S1600000x16_0_1_n_n_1_1_16000001 a idx (ix2 e c)
      = a (ix2 e (⟨min (idx (ix2 c (0 : Fin 1))).toInt.toNat (4 - 1), by omega⟩ : Fin 4)) :=
  gather_cols2 (N := 1600000) (C := 4) (n := 16) gather_S1600000x4_S16x1_S1600000x16_0_1_n_n_1_1_16000001
    rfl rfl rfl rfl rfl rfl rfl a idx e c (by decide)

/-- The take at the column-to-head table: column c of the result is column (head of c) of the operand. -/
private theorem take_apply (a : FVec Ideal S1600000x4 .f32) (e : Fin 1600000) (c : Fin 16) :
    Term.take a Term.repIdx (ix2 e c) = a (ix2 e (headOf c)) := by
  unfold Term.take
  rw [select_apply, mask_apply, RepeatIndex.takeInRange_apply, select_one, takeGather_apply]
  have hc : (⟨min (Term.takeCol Term.repIdx (ix2 c (0 : Fin 1))).toInt.toNat (4 - 1), by omega⟩ : Fin 4) = headOf c :=
    Fin.ext (by
      show min (Term.takeCol Term.repIdx (ix2 c (0 : Fin 1))).toInt.toNat (4 - 1) = (headOf c).val
      rw [RepeatIndex.takeCol_apply]; exact clamp_head _)
  rw [hc]

/-- An [N, 128] array viewed as [N, 4, 32]: entry (n, h, d) is entry (n, lane d of head h). -/
private theorem cast_heads {α : Type} {N : Nat} (x : (⟨2, ![N, 128]⟩ : Shape).Idx → α)
    (hc : (⟨2, ![N, 128]⟩ : Shape).ShapeCasts ⟨3, ![N, 4, 32]⟩) (n : Fin N) (h : Fin 4) (d : Fin 32) :
    shapeCast ⟨3, ![N, 4, 32]⟩ x hc (ix3 n h d) = x (ix2 n (laneOf h d)) := by
  have e1 : (⟨(n.val * (4 * 32) + h.val * 32 + d.val) / 128, Cert.LibLayoutRead.row_lt_of_casts hc n h d⟩ : Fin N) = n :=
    Fin.ext (by
      show (n.val * (4 * 32) + h.val * 32 + d.val) / 128 = n.val
      have := h.isLt; have := d.isLt; omega)
  have e2 : (⟨(n.val * (4 * 32) + h.val * 32 + d.val) % 128, Cert.LibLayoutRead.col_lt_of_casts hc n h d⟩ : Fin 128)
      = laneOf h d :=
    Fin.ext (by
      show (n.val * (4 * 32) + h.val * 32 + d.val) % 128 = 32 * h.val + d.val
      have := h.isLt; have := d.isLt; omega)
  rw [Cert.LibLayoutRead.cast_2_3 x hc n h d, e1, e2]

/-- The node projections viewed as heads: entry (n, h, d) is the projection of node n on lane d of head h. -/
private theorem heads_apply (x : FVec Ideal S50000x128 .f32) (W : FVec Ideal S128x128 .f32)
    (n : Fin 50000) (h : Fin 4) (d : Fin 32) :
    Term.heads x W (ix3 n h d) = proj x W n (laneOf h d) := by
  unfold Term.heads
  rw [cast_heads]
  have hp : Host.dotGeneral dot_S50000x128_S128x128_S50000x128_1_0_0_1_n_n none x
        (transpose S128x128 [1, 0] W Facts₀.transposes_S128x128_S128x128_1_0) (ix2 n (laneOf h d))
      = ∑ k : Fin 128, x (ix2 n k) * transpose S128x128 [1, 0] W Facts₀.transposes_S128x128_S128x128_1_0 (ix2 k (laneOf h d)) :=
    Cert.LibPlainMatmul.dotGeneral_plain_apply (M := 50000) (K := 128) (N := 128) none x _ n (laneOf h d)
  rw [hp]
  unfold proj
  refine Finset.sum_congr rfl fun k _ => ?_
  rw [transpose_ix2_apply]

/-- The gathered slabs: slab e is the table's slab at the node the start index of e names. -/
private theorem slabsAt_apply (t : FVec Ideal S50000x4x32 .f32) (idx : IVec S1600000x1 32)
    (e : Fin 1600000) (h : Fin 4) (d : Fin 32) :
    Term.slabsAt t idx (ix3 e h d) = t (ix3 (nodeOf idx e) h d) :=
  Cert.LibGatherRows3.gather_rows3 (N := 50000) (A := 4) (C := 32) (n := 1600000)
    gather_S50000x4x32_S1600000x1_S1600000x4x32_12_0_n_n_0_1_1432 rfl rfl rfl rfl rfl rfl rfl t idx e h d (by decide)

/-- The edge weights viewed as heads: entry (e, h, d) is the weight of edge e on lane d of head h. -/
private theorem weights_apply (w : FVec Ideal S1600000x128 .f32) (e : Fin 1600000) (h : Fin 4) (d : Fin 32) :
    shapeCast S1600000x4x32 w Facts₀.shapeCasts_S1600000x128_S1600000x4x32 (ix3 e h d) = w (ix2 e (laneOf h d)) :=
  cast_heads w _ e h d

/-- The host's sum over the lanes of a head, from the zero word: the sum over the 32 lanes. -/
private theorem laneSum_apply (v : FVec Ideal S1600000x4x32 .f32) (e : Fin 1600000) (h : Fin 4) :
    Host.reduceAdd v (constant S_ .f32 0x00000000#32) Facts₀.reducesTo_S1600000x4x32_S1600000x4_d2 Facts₀.h_S_ (ix2 e h)
      = ∑ d : Fin 32, v (ix3 e h d) := by
  have hr : S1600000x4x32.Reduces [2] S1600000x4 := by decide
  show Ideal.hostReduceAdd Facts₀.reducesTo_S1600000x4x32_S1600000x4_d2 v (Ideal.ofBits .f32 0x00000000#32) (ix2 e h) = _
  rw [Ideal.hostReduceAdd_single _ hr, Ideal.ofBits_zero_f32, zero_add]
  show ∑ k : Fin 32, v (hr.lift (ix2 e h) k) = ∑ d : Fin 32, v (ix3 e h d)
  refine Finset.sum_congr rfl fun k _ => ?_
  congr 1
  funext b
  match b with
  | ⟨0, _⟩ => rfl
  | ⟨1, _⟩ => rfl
  | ⟨2, _⟩ => rfl

/-- The divisor broadcast over the scores reads the divisor everywhere. -/
private theorem divisorSplat_apply (j : S1600000x4.Idx) :
    broadcastInDim S1600000x4 ![] Facts₀.bcast_S_S1600000x4 (constant (F := Ideal) S_ .f32 0x40B504F3#32) j
      = Ideal.ofBits .f32 0x40B504F3#32 := rfl

/-- The cutoff column broadcast over the four heads reads the edge's cutoff. -/
private theorem cutSplat_apply (cut : FVec Ideal S1600000x1 .f32) (e : Fin 1600000) (h : Fin 4) :
    broadcastInDim S1600000x4 ![0, 1] Facts₀.bcast_S1600000x1_S1600000x4_0_1 cut (ix2 e h) = cut (ix2 e (0 : Fin 1)) :=
  broadcastInDim_apply _ _ _ _ _ (fun a => match a with | ⟨0, _⟩ => rfl | ⟨1, _⟩ => rfl)

/-- The host's quotient at an index is the quotient of the entries. -/
private theorem quotient_apply {s : Shape} (a b : FVec Ideal s .f32) (j : s.Idx) :
    Host.divf a b j = Ideal.div (a j) (b j) := rfl

/-- The score of edge e for head h: the head's lanes summed, times the divisor's reciprocal, times the cutoff. -/
private theorem score_apply (x : FVec Ideal S50000x128 .f32) (Wq Wk : FVec Ideal S128x128 .f32)
    (w : FVec Ideal S1600000x128 .f32) (ei : IVec S2x1600000 32) (cut : FVec Ideal S1600000x1 .f32)
    (e : Fin 1600000) (h : Fin 4) :
    Term.score x Wq Wk w ei cut (ix2 e h)
      = (∑ d : Fin 32, lane x Wq Wk w (Term.startIdx (Term.dstRaw ei)) (Term.startIdx (Term.srcRaw ei)) e (laneOf h d))
          * invDiv * cut (ix2 e (0 : Fin 1)) := by
  unfold Term.score
  rw [mulf_apply, cutSplat_apply]
  rw [quotient_apply, divisorSplat_apply, div_divisor, laneSum_apply]
  congr 2
  refine Finset.sum_congr rfl fun d _ => ?_
  rw [mulf_apply, mulf_apply, slabsAt_apply, slabsAt_apply, heads_apply, heads_apply, weights_apply]
  rfl

/-- The reference's edge contributions, index by index, are the specification's. -/
theorem edges_eq (x : FVec Ideal S50000x128 .f32) (Wq Wk : FVec Ideal S128x128 .f32) (w : FVec Ideal S1600000x128 .f32)
    (ei : IVec S2x1600000 32) (cut : FVec Ideal S1600000x1 .f32) (sph : FVec Ideal S1600000x16 .f32) :
    Term.edges x Wq Wk w ei cut sph
      = contrib x Wq Wk w cut sph (Term.startIdx (Term.dstRaw ei)) (Term.startIdx (Term.srcRaw ei)) := by
  funext i
  obtain ⟨e, c, rfl⟩ : ∃ (e : Fin 1600000) (c : Fin 16), i = ix2 e c := ⟨i 0, i 1, eq_ix2 i⟩
  show mulf (Term.take (Term.score x Wq Wk w ei cut) Term.repIdx) sph (ix2 e c)
    = contribAt x Wq Wk w cut sph (Term.startIdx (Term.dstRaw ei)) (Term.startIdx (Term.srcRaw ei)) e c
  unfold contribAt
  rw [mulf_apply, take_apply, score_apply]

end Cert.ReferenceIdeal.Score

end
-- ==== Proof.lean ====
/-
  The certificate's claim. The kernel program computes, per edge, the attention score of each head — the lanes' triple
  products q[dst] · w · k[src] summed over the head's 32 lanes through a 0/1 grouping matrix on the matrix unit — times
  the reciprocal of the reference's divisor, the edge's cutoff and the edge's spherical components, and sums the
  contributions over each destination node; the reference computes the same per head by a reduction, divides by the
  divisor, and repeats each head's score over the head's columns. Both are the one array `Cert.HeadScore.contrib` under
  the same sum over destination nodes: the grouping matrix's column c holds ones exactly on the lanes of c's head, and a
  quotient by the divisor is the product with its reciprocal on every extended real. No step needs finiteness.
  The three frames: the two kernel programs' are the generated frame certificates; the reference's is its run with the
  result dropped. The idealization's one ledger entry is the named reciprocal.
-/
import proofs.«423898_j89910845374840_1_alg».proof.Defs
import proofs.«423898_j89910845374840_1_alg».proof.Proof.Gen.Kernel
import proofs.«423898_j89910845374840_1_alg».proof.Proof.Gen.Kernel.Frame
import proofs.«423898_j89910845374840_1_alg».proof.Proof.Gen.KernelIdeal
import proofs.«423898_j89910845374840_1_alg».proof.Proof.Gen.KernelIdeal.Frame
import proofs.«423898_j89910845374840_1_alg».proof.Proof.Gen.ReferenceIdeal
import proofs.«423898_j89910845374840_1_alg».proof.Proof.Gen.Pre_finite_inputs
import proofs.«423898_j89910845374840_1_alg».proof.Proof.KernelRun
import proofs.«423898_j89910845374840_1_alg».proof.Proof.KernelRead
import proofs.«423898_j89910845374840_1_alg».proof.Proof.KernelScore
import proofs.«423898_j89910845374840_1_alg».proof.Proof.ReferenceRun
import proofs.«423898_j89910845374840_1_alg».proof.Proof.ReferenceScore
import Idealize.ShloMosaic.Adequacy
import Idealize.ShloMosaic.Init

noncomputable section

namespace Cert.Proof

open Idealize.ShloMosaic Idealize.SL.Sem

/-! ## The two programs' result terms are one -/

/-- The two programs read the destination words, and sum over them, by the same operations. -/
theorem tail_eq (ei : IVec Cert.KernelIdeal.S2x1600000 32) (u : FVec Ideal Cert.KernelIdeal.S1600000x16 .f32) :
    Cert.KernelIdeal.Term.scatterTail (Cert.KernelIdeal.Term.dstRaw ei) u
      = Cert.ReferenceIdeal.Term.scatterTail (Cert.ReferenceIdeal.Term.dstRaw ei) u := rfl

/-- The destination start indices are the same term in both programs. -/
theorem startIdx_dst_eq (ei : IVec Cert.KernelIdeal.S2x1600000 32) :
    Cert.KernelIdeal.Term.startIdx (Cert.KernelIdeal.Term.dstRaw ei)
      = Cert.ReferenceIdeal.Term.startIdx (Cert.ReferenceIdeal.Term.dstRaw ei) := rfl

/-- The source start indices are the same term in both programs. -/
theorem startIdx_src_eq (ei : IVec Cert.KernelIdeal.S2x1600000 32) :
    Cert.KernelIdeal.Term.startIdx (Cert.KernelIdeal.Term.srcRaw ei)
      = Cert.ReferenceIdeal.Term.startIdx (Cert.ReferenceIdeal.Term.srcRaw ei) := rfl

/-- Both programs' results are the specification's contributions summed over the destination nodes. -/
theorem results_eq (x : FVec Ideal Cert.KernelIdeal.S50000x128 .f32) (Wq Wk : FVec Ideal Cert.KernelIdeal.S128x128 .f32)
    (w : FVec Ideal Cert.KernelIdeal.S1600000x128 .f32) (ei : IVec Cert.KernelIdeal.S2x1600000 32)
    (cut : FVec Ideal Cert.KernelIdeal.S1600000x1 .f32) (sph : FVec Ideal Cert.KernelIdeal.S1600000x16 .f32) :
    Cert.ReferenceIdeal.Term.result x Wq Wk w ei cut sph = Cert.KernelIdeal.Term.result x Wq Wk w ei cut sph := by
  unfold Cert.ReferenceIdeal.Term.result Cert.KernelIdeal.Term.result
  rw [Cert.ReferenceIdeal.Score.edges_eq, Cert.KernelIdeal.Score.edges_eq, startIdx_dst_eq, startIdx_src_eq]
  exact (tail_eq ei _).symm

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Run.run m ρ)

/-- The ledger's one entry: the certificate's table gives the kernel's scale literal the value 2097152 / 11863283, the
    reciprocal of the reference's divisor. -/
theorem preserves : Cert.preserves_Kernel_KernelIdeal :=
  IdealRules.named_const.statement Cert.KernelIdeal.κ "inv_divisor" .f32 0x3E3504F3#32 ((2097152 / 11863283 : ℝ) : EReal) rfl

/-- From memories agreeing on the arguments both programs end with the same result. -/
theorem algebraic : Cert.algebraic_KernelIdeal_ReferenceIdeal := by
  intro m ρ m' ρ' _ hagree
  refine ⟨fun c => Cert.KernelIdeal.Term.result (m ((c.tc : Thread Cert.KernelIdeal.nD Cert.KernelIdeal.τ).loc Cert.KernelIdeal.main_arg2)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Read.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.Run.run m' ρ')
    obtain ⟨-, h1, h2, h3, h4, h5, h6, h7⟩ := hagree c
    rw [h1, h2, h3, h4, h5, h6, h7]
    exact results_eq _ _ _ _ _ _ _

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_referenceIdeal, Cert.Proof.preserves,
    Cert.Proof.algebraic⟩

end
